-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S2x1600000 : S_.BroadcastsInDim S2x1600000 (![] : Fin 0 → Fin S2x1600000.rank)
  reducesTo_S2x1600000_S_d0_1 : S2x1600000.ReducesTo [0, 1] S_

variable [Facts]

def fn_part1 {F : FTy → Type} [FloatOps F] (main_arg4 : FVec F S64 .f32) (main_arg5 : IVec S2x1600000 32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_c_8 : IVec S_ 32 := constantI S_ 32 0#32
  let main_v24 : IVec S2x1600000 32 := broadcastInDim S2x1600000 ![] bcast_S_S2x1600000 main_c_8
  let main_v25 : IVec S2x1600000 1 := cmpi .sge main_arg5 main_v24
  let main_c_9 : IVec S_ 1 := constantI S_ 1 1#1
  let main_v26 : IVec S_ 1 := (fun x v => Host.reduce IntOp.andi x v reducesTo_S2x1600000_S_d0_1 h_S_) main_v25 main_c_9
  let main_v27 : IVec S_ 1 := andi main_v23 main_v26
  let main_c_10 : IVec S_ 32 := constantI S_ 32 100000#32
  let main_v28 : IVec S2x1600000 32 := broadcastInDim S2x1600000 ![] bcast_S_S2x1600000 main_c_10
  let main_v29 : IVec S2x1600000 1 := cmpi .slt main_arg5 main_v28
  let main_c_11 : IVec S_ 1 := constantI S_ 1 1#1
  let main_v30 : IVec S_ 1 := (fun x v => Host.reduce IntOp.andi x v reducesTo_S2x1600000_S_d0_1 h_S_) main_v29 main_c_11
  let main_v31 : IVec S_ 1 := andi main_v27 main_v30
  main_v31

def fn {F : FTy → Type} [FloatOps F] (main_arg0 : FVec F S100000x128 .f32) (main_arg1 : FVec F S128x128 .f32) (main_arg2 : FVec F S128 .f32) (main_arg3 : FVec F S128x64 .f32) (main_arg4 : FVec F S64 .f32) (main_arg5 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_v13 main_v16
-- ==== Kernel.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S5000x128 : Shape := ⟨2, ![5000, 128]⟩
abbrev S5000x1 : Shape := ⟨2, ![5000, 1]⟩
abbrev S1 : Shape := ⟨1, ![1]⟩
abbrev S1x1 : Shape := ⟨2, ![1, 1]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 103
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S2x1600000, .i32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S1700000, .i32⟩
  | .hbm, ⟨17, _⟩ => ⟨S1700000, .i32⟩
  | .hbm, ⟨18, _⟩ => ⟨S_, .i32⟩
  | .hbm, ⟨19, _⟩ => ⟨S1700000, .i32⟩
  | .hbm, ⟨20, _⟩ => ⟨S1700000, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S1700000, .i32⟩
  | .hbm, ⟨25, _⟩ => ⟨S1700000, .i32⟩
  | .hbm, ⟨26, _⟩ => ⟨S_, .i32⟩
  | .hbm, ⟨27, _⟩ => ⟨S1700000, .i32⟩
  | .hbm, ⟨28, _⟩ => ⟨S1700000, .i32⟩
  | .hbm, ⟨29, _⟩ => ⟨S_, .f32⟩
  | .hbm, ⟨30, _⟩ => ⟨S1700000, .f32⟩
  | .hbm, ⟨31, _⟩ => ⟨S_, .f32⟩
  | .hbm, ⟨32, _⟩ => ⟨S100000, .f32⟩
  | .hbm, ⟨33, _⟩ => ⟨S1700000x1, .i32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .i1⟩
  | .hbm, ⟨38, _⟩ => ⟨S100000, .f32⟩
  | .hbm, ⟨39, _⟩ => ⟨S_, .f32⟩
  | .hbm, ⟨40, _⟩ => ⟨S_, .f32⟩
  | .hbm, ⟨41, _⟩ => ⟨S100000, .f32⟩
  | .hbm, ⟨42, _⟩ => ⟨S100000, .f32⟩
  | .hbm, ⟨43, _⟩ => ⟨S100000x1, .f32⟩
  | .hbm, ⟨44, _⟩ => ⟨S100000x128, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1, .i32⟩
  | .hbm, ⟨54, _⟩ => ⟨S_, .i32⟩
  | .hbm, ⟨55, _⟩ => ⟨S1700000x1, .i32⟩
  | .hbm, ⟨56, _⟩ => ⟨S1700000x1, .i1⟩
  | .hbm, ⟨57, _⟩ => ⟨S1x1, .i32⟩
  | .hbm, ⟨58, _⟩ => ⟨S1700000x1, .i32⟩
  | .hbm, ⟨59, _⟩ => ⟨S1700000x1, .i1⟩
  | .hbm, ⟨60, _⟩ => ⟨S1700000x1, .i1⟩
  | .hbm, ⟨61, _⟩ => ⟨S_, .i1⟩
  | .hbm, ⟨62, _⟩ => ⟨S1700000, .i1⟩
  | .hbm, ⟨63, _⟩ => ⟨S1700000x128, .f32⟩
  | .hbm, ⟨64, _⟩ => ⟨S1700000x128, .i1⟩
  | .hbm, ⟨65, _⟩ => ⟨S_, .f32⟩
  | .hbm, ⟨66, _⟩ => ⟨S1700000x128, .f32⟩
  | .hbm, ⟨67, _⟩ => ⟨S1700000x128, .f32⟩
  | .hbm, ⟨68, _⟩ => ⟨S_, .f32⟩
  | .hbm, ⟨69, _⟩ => ⟨S100000x128, .f32⟩
  | .hbm, ⟨70, _⟩ => ⟨S1700000x1, .i32⟩
  | .hbm, ⟨71, _⟩ => ⟨S100000x128, .f32⟩
  | .hbm, ⟨72, _⟩ => ⟨S1x128, .f32⟩
  | .hbm, ⟨73, _⟩ => ⟨S100000x64, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1, .i32⟩
  | .hbm, ⟨83, _⟩ => ⟨S_, .i32⟩
  | .hbm, ⟨84, _⟩ => ⟨S1700000x1, .i32⟩
  | .hbm, ⟨85, _⟩ => ⟨S1700000x1, .i1⟩
  | .hbm, ⟨86, _⟩ => ⟨S1x1, .i32⟩
  | .hbm, ⟨87, _⟩ => ⟨S1700000x1, .i32⟩
  | .hbm, ⟨88, _⟩ => ⟨S1700000x1, .i1⟩
  | .hbm, ⟨89, _⟩ => ⟨S1700000x1, .i1⟩
  | .hbm, ⟨90, _⟩ => ⟨S_, .i1⟩
  | .hbm, ⟨91, _⟩ => ⟨S1700000, .i1⟩
  | .hbm, ⟨92, _⟩ => ⟨S1700000x64, .f32⟩
  | .hbm, ⟨93, _⟩ => ⟨S1700000x64, .i1⟩
  | .hbm, ⟨94, _⟩ => ⟨S_, .f32⟩
  | .hbm, ⟨95, _⟩ => ⟨S1700000x64, .f32⟩
  | .hbm, ⟨96, _⟩ => ⟨S1700000x64, .f32⟩
  | .hbm, ⟨97, _⟩ => ⟨S_, .f32⟩
  | .hbm, ⟨98, _⟩ => ⟨S100000x64, .f32⟩
  | .hbm, ⟨99, _⟩ => ⟨S1700000x1, .i32⟩
  | .hbm, ⟨100, _⟩ => ⟨S100000x64, .f32⟩
  | .hbm, ⟨101, _⟩ => ⟨S1x64, .f32⟩
  | .hbm, ⟨102, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x1, .f32⟩
  | .local _ .vmem, ⟨18, _⟩ => ⟨S5000x1, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_c_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v7 : Ref sig .tc := ⟨.hbm, 20, rfl⟩
abbrev main_c_1 : Ref sig .tc := ⟨.hbm, 21, rfl⟩
abbrev main_c_2 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v8 : Ref sig .tc := ⟨.hbm, 28, rfl⟩
abbrev main_cst : Ref sig .tc := ⟨.hbm, 29, rfl⟩
abbrev main_v9 : Ref sig .tc := ⟨.hbm, 30, rfl⟩
abbrev main_cst_3 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_4 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst_5 : Ref sig .tc := ⟨.hbm, 39, rfl⟩
abbrev main_call2_v0 : Ref sig .tc := ⟨.hbm, 40, rfl⟩
abbrev main_call2_v1 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_call3_c : Ref sig .tc := ⟨.hbm, 45, rfl⟩
abbrev main_call3_v0 : Ref sig .tc := ⟨.hbm, 46, rfl⟩
abbrev main_call3_v1 : Ref sig .tc := ⟨.hbm, 47, rfl⟩
abbrev main_call3_c_0 : Ref sig .tc := ⟨.hbm, 48, rfl⟩
abbrev main_call3_v2 : Ref sig .tc := ⟨.hbm, 49, rfl⟩
abbrev main_call3_v3 : Ref sig .tc := ⟨.hbm, 50, rfl⟩
abbrev main_call3_v4 : Ref sig .tc := ⟨.hbm, 51, rfl⟩
abbrev main_call3_v5 : Ref sig .tc := ⟨.hbm, 52, rfl⟩
abbrev main_call3_c_1 : Ref sig .tc := ⟨.hbm, 53, rfl⟩
abbrev main_call3_c_2 : Ref sig .tc := ⟨.hbm, 54, rfl⟩
abbrev main_call3_v6 : Ref sig .tc := ⟨.hbm, 55, rfl⟩
abbrev main_call3_v7 : Ref sig .tc := ⟨.hbm, 56, rfl⟩
abbrev main_call3_v8 : Ref sig .tc := ⟨.hbm, 57, rfl⟩
abbrev main_call3_v9 : Ref sig .tc := ⟨.hbm, 58, rfl⟩
abbrev main_call3_v10 : Ref sig .tc := ⟨.hbm, 59, rfl⟩
abbrev main_call3_v11 : Ref sig .tc := ⟨.hbm, 60, rfl⟩
abbrev main_call3_c_3 : Ref sig .tc := ⟨.hbm, 61, rfl⟩
abbrev main_call3_v12 : Ref sig .tc := ⟨.hbm, 62, rfl⟩
abbrev main_call3_v13 : Ref sig .tc := ⟨.hbm, 63, rfl⟩
abbrev main_call3_v14 : Ref sig .tc := ⟨.hbm, 64, rfl⟩
abbrev main_call3_cst : Ref sig .tc := ⟨.hbm, 65, rfl⟩
abbrev main_call3_v15 : Ref sig .tc := ⟨.hbm, 66, rfl⟩
abbrev main_v19 : Ref sig .tc := ⟨.hbm, 67, rfl⟩
abbrev main_cst_6 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_call4_c : Ref sig .tc := ⟨.hbm, 74, rfl⟩
abbrev main_call4_v0 : Ref sig .tc := ⟨.hbm, 75, rfl⟩
abbrev main_call4_v1 : Ref sig .tc := ⟨.hbm, 76, rfl⟩
abbrev main_call4_c_0 : Ref sig .tc := ⟨.hbm, 77, rfl⟩
abbrev main_call4_v2 : Ref sig .tc := ⟨.hbm, 78, rfl⟩
abbrev main_call4_v3 : Ref sig .tc := ⟨.hbm, 79, rfl⟩
abbrev main_call4_v4 : Ref sig .tc := ⟨.hbm, 80, rfl⟩
abbrev main_call4_v5 : Ref sig .tc := ⟨.hbm, 81, rfl⟩
abbrev main_call4_c_1 : Ref sig .tc := ⟨.hbm, 82, rfl⟩
abbrev main_call4_c_2 : Ref sig .tc := ⟨.hbm, 83, rfl⟩
abbrev main_call4_v6 : Ref sig .tc := ⟨.hbm, 84, rfl⟩
abbrev main_call4_v7 : Ref sig .tc := ⟨.hbm, 85, rfl⟩
abbrev main_call4_v8 : Ref sig .tc := ⟨.hbm, 86, rfl⟩
abbrev main_call4_v9 : Ref sig .tc := ⟨.hbm, 87, rfl⟩
abbrev main_call4_v10 : Ref sig .tc := ⟨.hbm, 88, rfl⟩
abbrev main_call4_v11 : Ref sig .tc := ⟨.hbm, 89, rfl⟩
abbrev main_call4_c_3 : Ref sig .tc := ⟨.hbm, 90, rfl⟩
abbrev main_call4_v12 : Ref sig .tc := ⟨.hbm, 91, rfl⟩
abbrev main_call4_v13 : Ref sig .tc := ⟨.hbm, 92, rfl⟩
abbrev main_call4_v14 : Ref sig .tc := ⟨.hbm, 93, rfl⟩
abbrev main_call4_cst : Ref sig .tc := ⟨.hbm, 94, rfl⟩
abbrev main_call4_v15 : Ref sig .tc := ⟨.hbm, 95, rfl⟩
abbrev main_v25 : Ref sig .tc := ⟨.hbm, 96, rfl⟩
abbrev main_cst_7 : Ref sig .tc := ⟨.hbm, 97, rfl⟩
abbrev main_v26 : Ref sig .tc := ⟨.hbm, 98, rfl⟩
abbrev main_v27 : Ref sig .tc := ⟨.hbm, 99, rfl⟩
abbrev main_v28 : Ref sig .tc := ⟨.hbm, 100, rfl⟩
abbrev main_v29 : Ref sig .tc := ⟨.hbm, 101, rfl⟩
abbrev main_v30 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S1700000x1 : S_.BroadcastsInDim S1700000x1 (![] : Fin 0 → Fin S1700000x1.rank)
  bcast_S1_S1x1_1 : S1.BroadcastsInDim S1x1 (![1] : Fin 1 → Fin S1x1.rank)
  bcast_S1x1_S1700000x1_0_1 : S1x1.BroadcastsInDim S1700000x1 (![0, 1] : Fin 2 → Fin S1700000x1.rank)
  reducesTo_S1700000x1_S1700000_d1 : S1700000x1.ReducesTo [1] S1700000
  h_S_ : 0 < S_.numel
  bcast_S1700000_S1700000x128_0 : S1700000.BroadcastsInDim S1700000x128 (![0] : Fin 1 → Fin S1700000x128.rank)
  bcast_S_S1700000x128 : S_.BroadcastsInDim S1700000x128 (![] : Fin 0 → Fin S1700000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S1700000_S1700000x64_0 : S1700000.BroadcastsInDim S1700000x64 (![0] : Fin 1 → Fin S1700000x64.rank)
  bcast_S_S1700000x64 : S_.BroadcastsInDim S1700000x64 (![] : Fin 0 → Fin S1700000x64.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S5000x64_S5000x64 : S5000x64.ShapeCasts S5000x64
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v28) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v29) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v30) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 89
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S2x1600000, .i32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x64, .f32⟩
  | .hbm, ⟨79, _⟩ => ⟨S1700000x1, .f32⟩
  | .hbm, ⟨80, _⟩ => ⟨S1700000x64, .f32⟩
  | .hbm, ⟨81, _⟩ => ⟨S1700000x64, .f32⟩
  | .hbm, ⟨82, _⟩ => ⟨S_, .f32⟩
  | .hbm, ⟨83, _⟩ => ⟨S100000x64, .f32⟩
  | .hbm, ⟨84, _⟩ => ⟨S1700000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KDefs.lean ====
/-
  The values the kernel's program computes on the host, between its pallas_calls, as functions of what they read:
  the edge lists with their self loops, clipped into the node range; the in-degree of every node and its inverse
  square root (zero where the degree is zero), kept as a column; a row gather in jnp.take's default mode (rows whose
  index falls outside the table are filled with NaN); and the scatter-add of the gathered rows onto their
  destination nodes.
-/
import proofs.«405914_j52123723104402_3_alg».proof.Proof.Gen.KernelIdeal.Launch

noncomputable section

namespace Cert.KernelIdeal.Hand

open Cert.KernelIdeal Cert.KernelIdeal.Gen Idealize.ShloMosaic Idealize.ShloMosaic.TcCoe

variable {F : FTy → Type} [FloatOps F]

/-- Row 0 of the edge list (the sources) followed by one self loop per node. -/
def catRow0 (E : IVec S2x1600000 32) : IVec S1700000 32 :=
  concatenate S1700000 0 [⟨S1600000, shapeCast S1600000 (extractStridedSlice S1x1600000 ![0, 0] E slices_S2x1600000_S1x1600000_0_0) shapeCasts_S1x1600000_S1600000⟩,
    ⟨S100000, iotaInDim S100000 32 0⟩] concatenates_S1600000_S100000_S1700000_d0

/-- Row 1 of the edge list (the destinations) followed by one self loop per node. -/
def catRow1 (E : IVec S2x1600000 32) : IVec S1700000 32 :=
  concatenate S1700000 0 [⟨S1600000, shapeCast S1600000 (extractStridedSlice S1x1600000 ![1, 0] E slices_S2x1600000_S1x1600000_1_0) shapeCasts_S1x1600000_S1600000⟩,
    ⟨S100000, iotaInDim S100000 32 0⟩] concatenates_S1600000_S100000_S1700000_d0

/-- Node indices clipped into [0, 99999]. -/
def clipW (v : IVec S1700000 32) : IVec S1700000 32 :=
  minsi (broadcastInDim S1700000 ![] bcast_S_S1700000 (id (constantI S_ 32 99999#32)))
    (maxsi (broadcastInDim S1700000 ![] bcast_S_S1700000 (id (constantI S_ 32 0#32))) v)

/-- A vector of indices as a column of start indices. -/
def colW (v : IVec S1700000 32) : IVec S1700000x1 32 := broadcastInDim S1700000x1 ![0] bcast_S1700000_S1700000x1_0 v

/-- The in-degree of every node: ones scatter-added along the destinations. -/
def degOf (d : IVec S1700000 32) : FVec F S100000 .f32 :=
  Host.scatterAdd scatter_S100000_S1700000x1_S1700000_n_0_0_1 (broadcastInDim S100000 ![] bcast_S_S100000 (constant S_ .f32 0x00000000#32))
    (colW d) (broadcastInDim S1700000 ![] bcast_S_S1700000 (constant S_ .f32 0x3F800000#32))

/-- The inverse square root of the degree, zero where the degree is not positive. -/
def dinvOf (d : IVec S1700000 32) : FVec F S100000 .f32 :=
  select (cmpf (F := F) .ogt (degOf d) (broadcastInDim S100000 ![] bcast_S_S100000 (constant S_ .f32 0x00000000#32)))
    (Host.rsqrt (degOf d)) (broadcastInDim S100000 ![] bcast_S_S100000 (id (constant S_ .f32 0x00000000#32)))

/-- The same kept as a column. -/
def dcolOf (d : IVec S1700000 32) : FVec F S100000x1 .f32 := shapeCast S100000x1 (dinvOf (F := F) d) shapeCasts_S100000_S100000x1

/-- NumPy's rule for a negative index: count from the end. -/
def wrapW (s : IVec S1700000 32) : IVec S1700000 32 :=
  select (cmpi .slt s (broadcastInDim S1700000 ![] bcast_S_S1700000 (constantI S_ 32 0#32)))
    (addi s (broadcastInDim S1700000 ![] bcast_S_S1700000 (constantI S_ 32 100000#32))) s

/-- Which start indices lie in [0, 99999]. -/
def maskW (c5 : IVec S1700000x1 32) : IVec S1700000 1 :=
  Host.reduce IntOp.andi
    (andi (cmpi .sge c5 (broadcastInDim S1700000x1 ![] bcast_S_S1700000x1 (constantI S_ 32 0#32)))
      (cmpi .sle c5 (broadcastInDim S1700000x1 ![0, 1] bcast_S1x1_S1700000x1_0_1 (broadcastInDim S1x1 ![1] bcast_S1_S1x1_1 (constantI S1 32 99999#32)))))
    (constantI S_ 1 1#1) reducesTo_S1700000x1_S1700000_d1 h_S_

/-- Rows of a 128-column table taken at the sources, out-of-range rows filled with NaN. -/
def take128 (T : FVec F S100000x128 .f32) (s : IVec S1700000 32) : FVec F S1700000x128 .f32 :=
  select (broadcastInDim S1700000x128 ![0] bcast_S1700000_S1700000x128_0 (maskW (colW (wrapW s))))
    (Host.gather gather_S100000x128_S1700000x1_S1700000x128_1_0_n_n_0_1_1128 T (colW (wrapW s)))
    (broadcastInDim S1700000x128 ![] bcast_S_S1700000x128 (constant S_ .f32 0x7FC00000#32))

/-- Rows of a 64-column table taken at the sources, out-of-range rows filled with NaN. -/
def take64 (T : FVec F S100000x64 .f32) (s : IVec S1700000 32) : FVec F S1700000x64 .f32 :=
  select (broadcastInDim S1700000x64 ![0] bcast_S1700000_S1700000x64_0 (maskW (colW (wrapW s))))
    (Host.gather gather_S100000x64_S1700000x1_S1700000x64_1_0_n_n_0_1_164 T (colW (wrapW s)))
    (broadcastInDim S1700000x64 ![] bcast_S_S1700000x64 (constant S_ .f32 0x7FC00000#32))

/-- Gathered 128-column rows added onto their destination nodes. -/
def agg128 (g : FVec F S1700000x128 .f32) (d : IVec S1700000 32) : FVec F S100000x128 .f32 :=
  Host.scatterAdd scatter_S100000x128_S1700000x1_S1700000x128_1_0_0_1
    (broadcastInDim S100000x128 ![] bcast_S_S100000x128 (constant S_ .f32 0x00000000#32)) (colW d) g

/-- Gathered 64-column rows added onto their destination nodes. -/
def agg64 (g : FVec F S1700000x64 .f32) (d : IVec S1700000 32) : FVec F S100000x64 .f32 :=
  Host.scatterAdd scatter_S100000x64_S1700000x1_S1700000x64_1_0_0_1
    (broadcastInDim S100000x64 ![] bcast_S_S100000x64 (constant S_ .f32 0x00000000#32)) (colW d) g

/-- The first bias as a row. -/
def rowB1 (b : FVec F S128 .f32) : FVec F S1x128 .f32 := shapeCast S1x128 b shapeCasts_S128_S1x128
/-- The second bias as a row. -/
def rowB2 (b : FVec F S64 .f32) : FVec F S1x64 .f32 := shapeCast S1x64 b shapeCasts_S64_S1x64

end Cert.KernelIdeal.Hand

end
-- ==== Proof.LibTRef.lean ====
/-
  Typed references of a module-local function: moving a value to the buffer's own type and back is the identity.

  An operation of an outlined function is stated over references that carry the type of the tensor they hold; its
  function is moved to the buffer's own contents type along the equation of the two types (`toBuf`) and each operand
  is moved back (`ofBuf`). Reading a line of such operations leaves a pair `ofBuf (toBuf v)` around every
  intermediate value; the pair is the identity, whatever the reference.
-/
import Idealize.ShloMosaic.Lib.StableHlo

namespace Idealize.ShloMosaic.StableHlo.TRef

variable {sig : RefSig} {Val : EltTy → Type} {T : BufTy}

/-- To the buffer's type and back. -/
theorem ofBuf_toBuf (x : TRef sig T) (v : T.Contents Val) : x.ofBuf (x.toBuf v) = v := by
  obtain ⟨r, rfl, h1, h2⟩ := x
  rfl

/-- Back and to the buffer's type. -/
theorem toBuf_ofBuf (x : TRef sig T) (v : x.ref.ty.Contents Val) : x.toBuf (x.ofBuf v) = v := by
  obtain ⟨r, rfl, h1, h2⟩ := x
  rfl

end Idealize.ShloMosaic.StableHlo.TRef
-- ==== Proof.KTake.lean ====
/-
  The row gather between two pallas_calls read back: jnp.take in its default mode prints as some twenty host operations
  (wrap negative indices, test the range, gather, fill the rows that fail the test with NaN). Read in two parts — the
  index column and its mask first, the gather and the select over those afterwards — they are the one function
  take128 / take64 of the table and the index vector, from any contents of the buffers.
-/
import proofs.«405914_j52123723104402_3_alg».proof.Proof.KDefs
import proofs.«405914_j52123723104402_3_alg».proof.Proof.LibTRef
import Idealize.ShloMosaic.Lib.StableHlo.Run
import Idealize.ShloMosaic.Lib.Pipeline.Frame

set_option maxRecDepth 16384

noncomputable section

namespace Cert.KernelIdeal.Hand

open Cert.KernelIdeal Cert.KernelIdeal.Gen Idealize.ShloMosaic Idealize.ShloMosaic.TcCoe Idealize.ShloMosaic.StableHlo

variable {F : FTy → Type} [FloatOps F]

/-! ## The 128-column row gather -/

/-- Its first operations: the wrapped start indices as a column and the range mask. -/
abbrev take128Head : List (HloOp τ sig (Elt F)) :=
  [ StableHlo.TRef.nullary (.of main_call3_c : StableHlo.TRef sig ⟨S_, .i32⟩) (constantI S_ 32 0#32),
    StableHlo.TRef.unary (.of main_call3_c : StableHlo.TRef sig ⟨S_, .i32⟩) (.of main_call3_v0 : StableHlo.TRef sig ⟨S1700000, .i32⟩) (broadcastInDim S1700000 ![] bcast_S_S1700000),
    StableHlo.TRef.binary (.of main_v7 : StableHlo.TRef sig ⟨S1700000, .i32⟩) (.of main_call3_v0 : StableHlo.TRef sig ⟨S1700000, .i32⟩) (.of main_call3_v1 : StableHlo.TRef sig ⟨S1700000, .i1⟩) (cmpi .slt),
    StableHlo.TRef.nullary (.of main_call3_c_0 : StableHlo.TRef sig ⟨S_, .i32⟩) (constantI S_ 32 100000#32),
    StableHlo.TRef.unary (.of main_call3_c_0 : StableHlo.TRef sig ⟨S_, .i32⟩) (.of main_call3_v2 : StableHlo.TRef sig ⟨S1700000, .i32⟩) (broadcastInDim S1700000 ![] bcast_S_S1700000),
    StableHlo.TRef.binary (.of main_v7 : StableHlo.TRef sig ⟨S1700000, .i32⟩) (.of main_call3_v2 : StableHlo.TRef sig ⟨S1700000, .i32⟩) (.of main_call3_v3 : StableHlo.TRef sig ⟨S1700000, .i32⟩) addi,
    StableHlo.TRef.ternary (.of main_call3_v1 : StableHlo.TRef sig ⟨S1700000, .i1⟩) (.of main_call3_v3 : StableHlo.TRef sig ⟨S1700000, .i32⟩) (.of main_v7 : StableHlo.TRef sig ⟨S1700000, .i32⟩) (.of main_call3_v4 : StableHlo.TRef sig ⟨S1700000, .i32⟩) select,
    StableHlo.TRef.unary main_call3_call0.v0 (.of main_call3_v5 : StableHlo.TRef sig ⟨S1700000x1, .i32⟩) (broadcastInDim S1700000x1 ![0] bcast_S1700000_S1700000x1_0),
    StableHlo.TRef.nullary (.of main_call3_c_1 : StableHlo.TRef sig ⟨S1, .i32⟩) (constantI S1 32 99999#32),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v6 : StableHlo.TRef sig ⟨S1700000x1, .i32⟩) (broadcastInDim S1700000x1 ![] bcast_S_S1700000x1),
    StableHlo.TRef.binary (.of main_call3_v5 : StableHlo.TRef sig ⟨S1700000x1, .i32⟩) (.of main_call3_v6 : StableHlo.TRef sig ⟨S1700000x1, .i32⟩) (.of main_call3_v7 : StableHlo.TRef sig ⟨S1700000x1, .i1⟩) (cmpi .sge),
    StableHlo.TRef.unary (.of main_call3_c_1 : StableHlo.TRef sig ⟨S1, .i32⟩) (.of main_call3_v8 : StableHlo.TRef sig ⟨S1x1, .i32⟩) (broadcastInDim S1x1 ![1] bcast_S1_S1x1_1),
    StableHlo.TRef.unary (.of main_call3_v8 : StableHlo.TRef sig ⟨S1x1, .i32⟩) (.of main_call3_v9 : StableHlo.TRef sig ⟨S1700000x1, .i32⟩) (broadcastInDim S1700000x1 ![0, 1] bcast_S1x1_S1700000x1_0_1),
    StableHlo.TRef.binary (.of main_call3_v5 : StableHlo.TRef sig ⟨S1700000x1, .i32⟩) (.of main_call3_v9 : StableHlo.TRef sig ⟨S1700000x1, .i32⟩) (.of main_call3_v10 : StableHlo.TRef sig ⟨S1700000x1, .i1⟩) (cmpi .sle),
    StableHlo.TRef.binary (.of main_call3_v7 : StableHlo.TRef sig ⟨S1700000x1, .i1⟩) (.of main_call3_v10 : StableHlo.TRef sig ⟨S1700000x1, .i1⟩) (.of main_call3_v11 : StableHlo.TRef sig ⟨S1700000x1, .i1⟩) andi,
    StableHlo.TRef.nullary (.of main_call3_c_3 : StableHlo.TRef sig ⟨S_, .i1⟩) (constantI S_ 1 1#1),
    StableHlo.TRef.binary (.of main_call3_v11 : StableHlo.TRef sig ⟨S1700000x1, .i1⟩) (.of main_call3_c_3 : StableHlo.TRef sig ⟨S_, .i1⟩) (.of main_call3_v12 : StableHlo.TRef sig ⟨S1700000, .i1⟩) (fun x v => Host.reduce IntOp.andi x v reducesTo_S1700000x1_S1700000_d1 h_S_) ]

/-- The rest: the gather, the mask spread over the columns, the NaN fill and the select. -/
abbrev take128Tail : List (HloOp τ sig (Elt F)) :=
  [ StableHlo.TRef.binary (.of main_v18 : StableHlo.TRef sig ⟨S100000x128, .f32⟩) (.of main_call3_v5 : StableHlo.TRef sig ⟨S1700000x1, .i32⟩) (.of main_call3_v13 : StableHlo.TRef sig ⟨S1700000x128, .f32⟩) (fun x i => Host.gather gather_S100000x128_S1700000x1_S1700000x128_1_0_n_n_0_1_1128 x i),
    StableHlo.TRef.unary (.of main_call3_v12 : StableHlo.TRef sig ⟨S1700000, .i1⟩) (.of main_call3_v14 : StableHlo.TRef sig ⟨S1700000x128, .i1⟩) (broadcastInDim S1700000x128 ![0] bcast_S1700000_S1700000x128_0),
    StableHlo.TRef.nullary (.of main_call3_cst : StableHlo.TRef sig ⟨S_, .f32⟩) (constant S_ .f32 0x7FC00000#32),
    StableHlo.TRef.unary (.of main_call3_cst : StableHlo.TRef sig ⟨S_, .f32⟩) (.of main_call3_v15 : StableHlo.TRef sig ⟨S1700000x128, .f32⟩) (broadcastInDim S1700000x128 ![] bcast_S_S1700000x128),
    StableHlo.TRef.ternary (.of main_call3_v14 : StableHlo.TRef sig ⟨S1700000x128, .i1⟩) (.of main_call3_v13 : StableHlo.TRef sig ⟨S1700000x128, .f32⟩) (.of main_call3_v15 : StableHlo.TRef sig ⟨S1700000x128, .f32⟩) (.of main_v19 : StableHlo.TRef sig ⟨S1700000x128, .f32⟩) select ]

theorem hostOps1_cut : (hostOps1 : List (HloOp τ sig (Elt F))) = take128Head ++ take128Tail := rfl

/-- The last operations from any contents: a select between the gathered rows and NaN under the spread mask. -/
theorem take128Tail_out (W : Valuation τ sig (Elt F)) :
    StableHlo.after take128Tail W (Proc.devRef .tc main_v19)
      = select (broadcastInDim S1700000x128 ![0] bcast_S1700000_S1700000x128_0 (W (Proc.devRef .tc main_call3_v12)))
          (Host.gather gather_S100000x128_S1700000x1_S1700000x128_1_0_n_n_0_1_1128 (W (Proc.devRef .tc main_v18)) (W (Proc.devRef .tc main_call3_v5)))
          (broadcastInDim S1700000x128 ![] bcast_S_S1700000x128 (constant S_ .f32 0x7FC00000#32)) := by
  after_results_simp <;> (try simp only [TRef.ofBuf, TRef.toBuf, cast_eq]) <;> rfl

/-- The first operations leave the wrapped start indices as a column, -/
theorem take128Head_v5 (V : Valuation τ sig (Elt F)) :
    StableHlo.after take128Head V (Proc.devRef .tc main_call3_v5) = colW (wrapW (V (Proc.devRef .tc main_v7))) := by
  after_results_simp <;> (try simp only [TRef.ofBuf, TRef.toBuf, cast_eq]) <;> rfl

/-- the range mask of that column, -/
theorem take128Head_v12 (V : Valuation τ sig (Elt F)) :
    StableHlo.after take128Head V (Proc.devRef .tc main_call3_v12) = maskW (colW (wrapW (V (Proc.devRef .tc main_v7)))) := by
  after_results_simp <;> (try simp only [TRef.ofBuf, TRef.toBuf, cast_eq]) <;> rfl

/-- and the table as it was. -/
theorem take128Head_tbl (V : Valuation τ sig (Elt F)) :
    StableHlo.after take128Head V (Proc.devRef .tc main_v18) = V (Proc.devRef .tc main_v18) := by
  after_results_simp <;> (try simp only [TRef.ofBuf, TRef.toBuf, cast_eq]) <;> rfl

/-- The whole gather: rows of the table at the sources, out-of-range rows filled with NaN. -/
theorem hostOps1_v19 (V : Valuation τ sig (Elt F)) :
    StableHlo.after hostOps1 V (Proc.devRef .tc main_v19) = take128 (V (Proc.devRef .tc main_v18)) (V (Proc.devRef .tc main_v7)) := by
  rw [hostOps1_cut, StableHlo.after_append, take128Tail_out, take128Head_v5, take128Head_v12, take128Head_tbl]
  rfl

/-! ## The 64-column row gather -/

/-- Its first operations: the wrapped start indices as a column and the range mask. -/
abbrev take64Head : List (HloOp τ sig (Elt F)) :=
  [ StableHlo.TRef.nullary (.of main_call4_c : StableHlo.TRef sig ⟨S_, .i32⟩) (constantI S_ 32 0#32),
    StableHlo.TRef.unary (.of main_call4_c : StableHlo.TRef sig ⟨S_, .i32⟩) (.of main_call4_v0 : StableHlo.TRef sig ⟨S1700000, .i32⟩) (broadcastInDim S1700000 ![] bcast_S_S1700000),
    StableHlo.TRef.binary (.of main_v7 : StableHlo.TRef sig ⟨S1700000, .i32⟩) (.of main_call4_v0 : StableHlo.TRef sig ⟨S1700000, .i32⟩) (.of main_call4_v1 : StableHlo.TRef sig ⟨S1700000, .i1⟩) (cmpi .slt),
    StableHlo.TRef.nullary (.of main_call4_c_0 : StableHlo.TRef sig ⟨S_, .i32⟩) (constantI S_ 32 100000#32),
    StableHlo.TRef.unary (.of main_call4_c_0 : StableHlo.TRef sig ⟨S_, .i32⟩) (.of main_call4_v2 : StableHlo.TRef sig ⟨S1700000, .i32⟩) (broadcastInDim S1700000 ![] bcast_S_S1700000),
    StableHlo.TRef.binary (.of main_v7 : StableHlo.TRef sig ⟨S1700000, .i32⟩) (.of main_call4_v2 : StableHlo.TRef sig ⟨S1700000, .i32⟩) (.of main_call4_v3 : StableHlo.TRef sig ⟨S1700000, .i32⟩) addi,
    StableHlo.TRef.ternary (.of main_call4_v1 : StableHlo.TRef sig ⟨S1700000, .i1⟩) (.of main_call4_v3 : StableHlo.TRef sig ⟨S1700000, .i32⟩) (.of main_v7 : StableHlo.TRef sig ⟨S1700000, .i32⟩) (.of main_call4_v4 : StableHlo.TRef sig ⟨S1700000, .i32⟩) select,
    StableHlo.TRef.unary main_call4_call0.v0 (.of main_call4_v5 : StableHlo.TRef sig ⟨S1700000x1, .i32⟩) (broadcastInDim S1700000x1 ![0] bcast_S1700000_S1700000x1_0),
    StableHlo.TRef.nullary (.of main_call4_c_1 : StableHlo.TRef sig ⟨S1, .i32⟩) (constantI S1 32 99999#32),
    StableHlo.TRef.nullary (.of main_call4_c_2 : StableHlo.TRef sig ⟨S_, .i32⟩) (constantI S_ 32 0#32),
    StableHlo.TRef.unary (.of main_call4_c_2 : StableHlo.TRef sig ⟨S_, .i32⟩) (.of main_call4_v6 : StableHlo.TRef sig ⟨S1700000x1, .i32⟩) (broadcastInDim S1700000x1 ![] bcast_S_S1700000x1),
    StableHlo.TRef.binary (.of main_call4_v5 : StableHlo.TRef sig ⟨S1700000x1, .i32⟩) (.of main_call4_v6 : StableHlo.TRef sig ⟨S1700000x1, .i32⟩) (.of main_call4_v7 : StableHlo.TRef sig ⟨S1700000x1, .i1⟩) (cmpi .sge),
    StableHlo.TRef.unary (.of main_call4_c_1 : StableHlo.TRef sig ⟨S1, .i32⟩) (.of main_call4_v8 : StableHlo.TRef sig ⟨S1x1, .i32⟩) (broadcastInDim S1x1 ![1] bcast_S1_S1x1_1),
    StableHlo.TRef.unary (.of main_call4_v8 : StableHlo.TRef sig ⟨S1x1, .i32⟩) (.of main_call4_v9 : StableHlo.TRef sig ⟨S1700000x1, .i32⟩) (broadcastInDim S1700000x1 ![0, 1] bcast_S1x1_S1700000x1_0_1),
    StableHlo.TRef.binary (.of main_call4_v5 : StableHlo.TRef sig ⟨S1700000x1, .i32⟩) (.of main_call4_v9 : StableHlo.TRef sig ⟨S1700000x1, .i32⟩) (.of main_call4_v10 : StableHlo.TRef sig ⟨S1700000x1, .i1⟩) (cmpi .sle),
    StableHlo.TRef.binary (.of main_call4_v7 : StableHlo.TRef sig ⟨S1700000x1, .i1⟩) (.of main_call4_v10 : StableHlo.TRef sig ⟨S1700000x1, .i1⟩) (.of main_call4_v11 : StableHlo.TRef sig ⟨S1700000x1, .i1⟩) andi,
    StableHlo.TRef.nullary (.of main_call4_c_3 : StableHlo.TRef sig ⟨S_, .i1⟩) (constantI S_ 1 1#1),
    StableHlo.TRef.binary (.of main_call4_v11 : StableHlo.TRef sig ⟨S1700000x1, .i1⟩) (.of main_call4_c_3 : StableHlo.TRef sig ⟨S_, .i1⟩) (.of main_call4_v12 : StableHlo.TRef sig ⟨S1700000, .i1⟩) (fun x v => Host.reduce IntOp.andi x v reducesTo_S1700000x1_S1700000_d1 h_S_) ]

/-- The rest: the gather, the mask spread over the columns, the NaN fill and the select. -/
abbrev take64Tail : List (HloOp τ sig (Elt F)) :=
  [ StableHlo.TRef.binary (.of main_v24 : StableHlo.TRef sig ⟨S100000x64, .f32⟩) (.of main_call4_v5 : StableHlo.TRef sig ⟨S1700000x1, .i32⟩) (.of main_call4_v13 : StableHlo.TRef sig ⟨S1700000x64, .f32⟩) (fun x i => Host.gather gather_S100000x64_S1700000x1_S1700000x64_1_0_n_n_0_1_164 x i),
    StableHlo.TRef.unary (.of main_call4_v12 : StableHlo.TRef sig ⟨S1700000, .i1⟩) (.of main_call4_v14 : StableHlo.TRef sig ⟨S1700000x64, .i1⟩) (broadcastInDim S1700000x64 ![0] bcast_S1700000_S1700000x64_0),
    StableHlo.TRef.nullary (.of main_call4_cst : StableHlo.TRef sig ⟨S_, .f32⟩) (constant S_ .f32 0x7FC00000#32),
    StableHlo.TRef.unary (.of main_call4_cst : StableHlo.TRef sig ⟨S_, .f32⟩) (.of main_call4_v15 : StableHlo.TRef sig ⟨S1700000x64, .f32⟩) (broadcastInDim S1700000x64 ![] bcast_S_S1700000x64),
    StableHlo.TRef.ternary (.of main_call4_v14 : StableHlo.TRef sig ⟨S1700000x64, .i1⟩) (.of main_call4_v13 : StableHlo.TRef sig ⟨S1700000x64, .f32⟩) (.of main_call4_v15 : StableHlo.TRef sig ⟨S1700000x64, .f32⟩) (.of main_v25 : StableHlo.TRef sig ⟨S1700000x64, .f32⟩) select ]

theorem hostOps2_cut : (hostOps2 : List (HloOp τ sig (Elt F))) = take64Head ++ take64Tail := rfl

/-- The last operations from any contents: a select between the gathered rows and NaN under the spread mask. -/
theorem take64Tail_out (W : Valuation τ sig (Elt F)) :
    StableHlo.after take64Tail W (Proc.devRef .tc main_v25)
      = select (broadcastInDim S1700000x64 ![0] bcast_S1700000_S1700000x64_0 (W (Proc.devRef .tc main_call4_v12)))
          (Host.gather gather_S100000x64_S1700000x1_S1700000x64_1_0_n_n_0_1_164 (W (Proc.devRef .tc main_v24)) (W (Proc.devRef .tc main_call4_v5)))
          (broadcastInDim S1700000x64 ![] bcast_S_S1700000x64 (constant S_ .f32 0x7FC00000#32)) := by
  after_results_simp <;> (try simp only [TRef.ofBuf, TRef.toBuf, cast_eq]) <;> rfl

/-- The first operations leave the wrapped start indices as a column, -/
theorem take64Head_v5 (V : Valuation τ sig (Elt F)) :
    StableHlo.after take64Head V (Proc.devRef .tc main_call4_v5) = colW (wrapW (V (Proc.devRef .tc main_v7))) := by
  after_results_simp <;> (try simp only [TRef.ofBuf, TRef.toBuf, cast_eq]) <;> rfl

/-- the range mask of that column, -/
theorem take64Head_v12 (V : Valuation τ sig (Elt F)) :
    StableHlo.after take64Head V (Proc.devRef .tc main_call4_v12) = maskW (colW (wrapW (V (Proc.devRef .tc main_v7)))) := by
  after_results_simp <;> (try simp only [TRef.ofBuf, TRef.toBuf, cast_eq]) <;> rfl

/-- and the table as it was. -/
theorem take64Head_tbl (V : Valuation τ sig (Elt F)) :
    StableHlo.after take64Head V (Proc.devRef .tc main_v24) = V (Proc.devRef .tc main_v24) := by
  after_results_simp <;> (try simp only [TRef.ofBuf, TRef.toBuf, cast_eq]) <;> rfl

/-- The whole gather: rows of the table at the sources, out-of-range rows filled with NaN. -/
theorem hostOps2_v25 (V : Valuation τ sig (Elt F)) :
    StableHlo.after hostOps2 V (Proc.devRef .tc main_v25) = take64 (V (Proc.devRef .tc main_v24)) (V (Proc.devRef .tc main_v7)) := by
  rw [hostOps2_cut, StableHlo.after_append, take64Tail_out, take64Head_v5, take64Head_v12, take64Head_tbl]
  rfl

end Cert.KernelIdeal.Hand

end
-- ==== Proof.KHost.lean ====
/-
  The host stretches of the kernel's program read back: what each buffer a pallas_call reads holds after the
  operations before it, from any contents of the buffers those operations read.
-/
import proofs.«405914_j52123723104402_3_alg».proof.Proof.KDefs
import proofs.«405914_j52123723104402_3_alg».proof.Proof.LibTRef
import proofs.«405914_j52123723104402_3_alg».proof.Proof.KTake
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.ShloMosaic.StableHlo

variable {F : FTy → Type} [FloatOps F]

/-- The buffers after the seven stretches before the first pallas_call. -/
abbrev afterPre (V : Valuation τ sig (Elt F)) : Valuation τ sig (Elt F) :=
  StableHlo.after hostOps0_6 (StableHlo.after hostOps0_5 (StableHlo.after hostOps0_4 (StableHlo.after hostOps0_3
    (StableHlo.after hostOps0_2 (StableHlo.after hostOps0_1 (StableHlo.after hostOps0 V))))))

/-- The buffers after the two stretches between the first and the second pallas_call. -/
abbrev afterMid1 (V : Valuation τ sig (Elt F)) : Valuation τ sig (Elt F) :=
  StableHlo.after hostOps1_1 (StableHlo.after hostOps1 V)

/-- The buffers after the two stretches between the second and the third pallas_call. -/
abbrev afterMid2 (V : Valuation τ sig (Elt F)) : Valuation τ sig (Elt F) :=
  StableHlo.after hostOps2_1 (StableHlo.after hostOps2 V)

theorem pre_v7 (V : Valuation τ sig (Elt F)) :
    afterPre V (Proc.devRef .tc main_v7) = clipW (catRow0 (V (Proc.devRef .tc main_arg5))) := by
  after_results_simp <;> (try simp only [TRef.ofBuf, TRef.toBuf, cast_eq]) <;> rfl
theorem pre_v8 (V : Valuation τ sig (Elt F)) :
    afterPre V (Proc.devRef .tc main_v8) = clipW (catRow1 (V (Proc.devRef .tc main_arg5))) := by
  after_results_simp <;> (try simp only [TRef.ofBuf, TRef.toBuf, cast_eq]) <;> rfl
theorem pre_v17 (V : Valuation τ sig (Elt F)) :
    afterPre V (Proc.devRef .tc main_v17) = dcolOf (F := F) (clipW (catRow1 (V (Proc.devRef .tc main_arg5)))) := by
  after_results_simp <;> (try simp only [TRef.ofBuf, TRef.toBuf, cast_eq])
  -- the two operands of the concatenation sit inside pairs of a shape and a value: they are read back one by one
  repeat (first
    | rw [nullary_result] | rw [unary_result] | rw [binary_result] | rw [reshape_result]
    | (rw [nullary_result_ne]; rotate_left; decide)
    | (rw [unary_result_ne]; rotate_left; decide)
    | (rw [binary_result_ne]; rotate_left; decide)
    | (rw [reshape_result_ne]; rotate_left; decide))
  unfold dcolOf dinvOf degOf colW clipW catRow1
  rfl
theorem pre_arg0 (V : Valuation τ sig (Elt F)) : afterPre V (Proc.devRef .tc main_arg0) = V (Proc.devRef .tc main_arg0) := by
  after_results_simp <;> (try simp only [TRef.ofBuf, TRef.toBuf, cast_eq]) <;> rfl
theorem pre_arg1 (V : Valuation τ sig (Elt F)) : afterPre V (Proc.devRef .tc main_arg1) = V (Proc.devRef .tc main_arg1) := by
  after_results_simp <;> (try simp only [TRef.ofBuf, TRef.toBuf, cast_eq]) <;> rfl
theorem pre_arg2 (V : Valuation τ sig (Elt F)) : afterPre V (Proc.devRef .tc main_arg2) = V (Proc.devRef .tc main_arg2) := by
  after_results_simp <;> (try simp only [TRef.ofBuf, TRef.toBuf, cast_eq]) <;> rfl
theorem pre_arg3 (V : Valuation τ sig (Elt F)) : afterPre V (Proc.devRef .tc main_arg3) = V (Proc.devRef .tc main_arg3) := by
  after_results_simp <;> (try simp only [TRef.ofBuf, TRef.toBuf, cast_eq]) <;> rfl
theorem pre_arg4 (V : Valuation τ sig (Elt F)) : afterPre V (Proc.devRef .tc main_arg4) = V (Proc.devRef .tc main_arg4) := by
  after_results_simp <;> (try simp only [TRef.ofBuf, TRef.toBuf, cast_eq]) <;> rfl

/-- The row gather does not write the destinations. -/
private theorem hostOps1_keeps_v8 (V : Valuation τ sig (Elt F)) :
    StableHlo.after hostOps1 V (Proc.devRef .tc main_v8) = V (Proc.devRef .tc main_v8) := by
  after_results_simp <;> (try simp only [TRef.ofBuf, TRef.toBuf, cast_eq]) <;> rfl

/-- The stretch after the row gather, from any contents: the gathered rows added onto their destinations. -/
private theorem hostOps1_1_v22 (W : Valuation τ sig (Elt F)) :
    StableHlo.after hostOps1_1 W (Proc.devRef .tc main_v22) = agg128 (W (Proc.devRef .tc main_v19)) (W (Proc.devRef .tc main_v8)) := by
  after_results_simp <;> (try simp only [TRef.ofBuf, TRef.toBuf, cast_eq]) <;> rfl

theorem mid1_v22 (V : Valuation τ sig (Elt F)) :
    afterMid1 V (Proc.devRef .tc main_v22)
      = agg128 (take128 (V (Proc.devRef .tc main_v18)) (V (Proc.devRef .tc main_v7))) (V (Proc.devRef .tc main_v8)) := by
  show StableHlo.after hostOps1_1 (StableHlo.after hostOps1 V) (Proc.devRef .tc main_v22) = _
  rw [hostOps1_1_v22, hostOps1_v19, hostOps1_keeps_v8]
theorem mid1_v23 (V : Valuation τ sig (Elt F)) :
    afterMid1 V (Proc.devRef .tc main_v23) = rowB1 (V (Proc.devRef .tc main_arg2)) := by
  after_results_simp <;> (try simp only [TRef.ofBuf, TRef.toBuf, cast_eq]) <;> rfl
theorem mid1_v17 (V : Valuation τ sig (Elt F)) : afterMid1 V (Proc.devRef .tc main_v17) = V (Proc.devRef .tc main_v17) := by
  after_results_simp <;> (try simp only [TRef.ofBuf, TRef.toBuf, cast_eq]) <;> rfl
theorem mid1_v7 (V : Valuation τ sig (Elt F)) : afterMid1 V (Proc.devRef .tc main_v7) = V (Proc.devRef .tc main_v7) := by
  after_results_simp <;> (try simp only [TRef.ofBuf, TRef.toBuf, cast_eq]) <;> rfl
theorem mid1_v8 (V : Valuation τ sig (Elt F)) : afterMid1 V (Proc.devRef .tc main_v8) = V (Proc.devRef .tc main_v8) := by
  after_results_simp <;> (try simp only [TRef.ofBuf, TRef.toBuf, cast_eq]) <;> rfl
theorem mid1_arg3 (V : Valuation τ sig (Elt F)) : afterMid1 V (Proc.devRef .tc main_arg3) = V (Proc.devRef .tc main_arg3) := by
  after_results_simp <;> (try simp only [TRef.ofBuf, TRef.toBuf, cast_eq]) <;> rfl
theorem mid1_arg4 (V : Valuation τ sig (Elt F)) : afterMid1 V (Proc.devRef .tc main_arg4) = V (Proc.devRef .tc main_arg4) := by
  after_results_simp <;> (try simp only [TRef.ofBuf, TRef.toBuf, cast_eq]) <;> rfl

/-- The row gather does not write the destinations. -/
private theorem hostOps2_keeps_v8 (V : Valuation τ sig (Elt F)) :
    StableHlo.after hostOps2 V (Proc.devRef .tc main_v8) = V (Proc.devRef .tc main_v8) := by
  after_results_simp <;> (try simp only [TRef.ofBuf, TRef.toBuf, cast_eq]) <;> rfl

/-- The stretch after the row gather, from any contents: the gathered rows added onto their destinations. -/
private theorem hostOps2_1_v28 (W : Valuation τ sig (Elt F)) :
    StableHlo.after hostOps2_1 W (Proc.devRef .tc main_v28) = agg64 (W (Proc.devRef .tc main_v25)) (W (Proc.devRef .tc main_v8)) := by
  after_results_simp <;> (try simp only [TRef.ofBuf, TRef.toBuf, cast_eq]) <;> rfl

theorem mid2_v28 (V : Valuation τ sig (Elt F)) :
    afterMid2 V (Proc.devRef .tc main_v28)
      = agg64 (take64 (V (Proc.devRef .tc main_v24)) (V (Proc.devRef .tc main_v7))) (V (Proc.devRef .tc main_v8)) := by
  show StableHlo.after hostOps2_1 (StableHlo.after hostOps2 V) (Proc.devRef .tc main_v28) = _
  rw [hostOps2_1_v28, hostOps2_v25, hostOps2_keeps_v8]
theorem mid2_v29 (V : Valuation τ sig (Elt F)) :
    afterMid2 V (Proc.devRef .tc main_v29) = rowB2 (V (Proc.devRef .tc main_arg4)) := by
  after_results_simp <;> (try simp only [TRef.ofBuf, TRef.toBuf, cast_eq]) <;> rfl
theorem mid2_v17 (V : Valuation τ sig (Elt F)) : afterMid2 V (Proc.devRef .tc main_v17) = V (Proc.devRef .tc main_v17) := by
  after_results_simp <;> (try simp only [TRef.ofBuf, TRef.toBuf, cast_eq]) <;> rfl

end Cert.KernelIdeal.Hand

end
-- ==== Proof.LibGcnDense.lean ====
/-
  The dense pieces of a graph-convolution layer, index by index on the extended reals: a matrix product as a sum
  over the middle coordinate, a per-row scale kept as a column, a bias kept as a row, the rectifier; and the three
  maps the blocked kernels compute on whole arrays:
      G0 x W v      = (x W) scaled by v,
      G1 a v b W    = (max (a scaled by v + b) 0) W  scaled by v,
      G2 a v b      = a scaled by v + b.
  Each reads only the row it is asked for, so a row block of the result is the same function of the row block.
-/
import Idealize.ShloMosaic.PureOps.Ideal
import Idealize.ShloMosaic.Lib.ValueIdx

noncomputable section

open Idealize.ShloMosaic Idealize.ShloMosaic.ValueIdx

namespace Cert.Gcn

/-- The product of an [N, K] and a [K, H] matrix. -/
def mm {N K H : ℕ} (a : (⟨2, ![N, K]⟩ : Shape).Idx → EReal) (W : (⟨2, ![K, H]⟩ : Shape).Idx → EReal) :
    (⟨2, ![N, H]⟩ : Shape).Idx → EReal := fun i => ∑ k : Fin K, a (ix2 (i 0) k) * W (ix2 k (i 1))

/-- Row p of a scaled by entry p of a column. -/
def scaleCol {N H : ℕ} (a : (⟨2, ![N, H]⟩ : Shape).Idx → EReal) (v : (⟨2, ![N, 1]⟩ : Shape).Idx → EReal) :
    (⟨2, ![N, H]⟩ : Shape).Idx → EReal := fun i => a i * v (ix2 (i 0) 0)

/-- A row vector added to every row. -/
def addRow {N H : ℕ} (a : (⟨2, ![N, H]⟩ : Shape).Idx → EReal) (b : (⟨2, ![1, H]⟩ : Shape).Idx → EReal) :
    (⟨2, ![N, H]⟩ : Shape).Idx → EReal := fun i => a i + b (ix2 0 (i 1))

/-- The rectifier. -/
def relu {S : Shape} (a : S.Idx → EReal) : S.Idx → EReal := fun i => max (a i) 0

/-- The first layer's product, scaled. -/
def G0 {N K H : ℕ} (x : (⟨2, ![N, K]⟩ : Shape).Idx → EReal) (W : (⟨2, ![K, H]⟩ : Shape).Idx → EReal)
    (v : (⟨2, ![N, 1]⟩ : Shape).Idx → EReal) : (⟨2, ![N, H]⟩ : Shape).Idx → EReal := scaleCol (mm x W) v

/-- The first layer's closing scale, bias and rectifier, then the second layer's product, scaled. -/
def G1 {N K H : ℕ} (a : (⟨2, ![N, K]⟩ : Shape).Idx → EReal) (v : (⟨2, ![N, 1]⟩ : Shape).Idx → EReal)
    (b : (⟨2, ![1, K]⟩ : Shape).Idx → EReal) (W : (⟨2, ![K, H]⟩ : Shape).Idx → EReal) :
    (⟨2, ![N, H]⟩ : Shape).Idx → EReal := scaleCol (mm (relu (addRow (scaleCol a v) b)) W) v

/-- The second layer's closing scale and bias. -/
def G2 {N H : ℕ} (a : (⟨2, ![N, H]⟩ : Shape).Idx → EReal) (v : (⟨2, ![N, 1]⟩ : Shape).Idx → EReal)
    (b : (⟨2, ![1, H]⟩ : Shape).Idx → EReal) : (⟨2, ![N, H]⟩ : Shape).Idx → EReal := addRow (scaleCol a v) b

end Cert.Gcn

end
-- ==== Proof.LibMlp.lean ====
/-
  One dense stage of a graph network's per-node perceptron, as a function on the extended reals, index by index:
  a matrix product, a bias, and an evaluation-mode batch normalisation  (a - m) * rsqrt (v + eps) * g + b , optionally
  followed by a rectifier  max a 0 .  Written over PLAIN coordinates (`Fin`) so that a kernel's row block and the
  whole array are the same function of their rows, and read off the two spellings a program may give it: the
  vector dialect's (a matrix-unit product into a zero accumulator, row vectors broadcast down the rows) and the
  host's (a `dot_general`, vectors broadcast in two steps).
-/
import Idealize.ShloMosaic.PureOps.Ideal
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.Mlp

/-- The variance offset of the normalisation: the single-precision word nearest 1e-5, read as an extended real. -/
def eps : EReal := Ideal.ofBits .f32 0x3727C5AC#32
/-- The rectifier's floor: the zero word. -/
def zero : EReal := Ideal.ofBits .f32 0x00000000#32

/-- Evaluation-mode batch normalisation of one value. -/
def bn (a m v g b : EReal) : EReal := (a - m) * Ideal.rsqrt (v + eps) * g + b

/-- A dense stage: row `i 0` of `a` against column `i 1` of `W`, plus the bias, normalised. -/
def lin {N K H : ℕ} (a : (⟨2, ![N, K]⟩ : Shape).Idx → EReal) (W : (⟨2, ![K, H]⟩ : Shape).Idx → EReal)
    (b g be m v : Fin H → EReal) : (⟨2, ![N, H]⟩ : Shape).Idx → EReal := fun i =>
  bn ((∑ k : Fin K, a (ix2 (i 0) k) * W (ix2 k (i 1))) + b (i 1)) (m (i 1)) (v (i 1)) (g (i 1)) (be (i 1))

/-- A one-row matrix read as a vector of its entries. -/
def row {H : ℕ} (x : (⟨2, ![1, H]⟩ : Shape).Idx → EReal) : Fin H → EReal := fun h => x (ix2 0 h)
/-- A rank-one array read as a vector of its entries. -/
def vec {H : ℕ} (x : (⟨1, ![H]⟩ : Shape).Idx → EReal) : Fin H → EReal := fun h => x (ix1 h)

/-- A vector reshaped to one row and read back as a vector is the vector. -/
theorem row_shapeCast {H : ℕ} (y : (⟨1, ![H]⟩ : Shape).Idx → EReal) (h : (⟨1, ![H]⟩ : Shape).ShapeCasts ⟨2, ![1, H]⟩) :
    row (shapeCast (⟨2, ![1, H]⟩ : Shape) y h) = vec y := by
  funext q
  show shapeCast (⟨2, ![1, H]⟩ : Shape) y h (ix2 0 q) = y (ix1 q)
  exact shapeCast_apply y h (ix2 0 q) (ix1 q) (by
    rw [Shape.rowMajor_val_two, Shape.rowMajor_val_one]; show q.val = 0 * H + q.val; omega)

/-- The rectifier, entry by entry. -/
def relu {S : Shape} (a : S.Idx → EReal) : S.Idx → EReal := fun i => max (a i) zero

/-- A dense stage reads only the row it is asked for: two inputs that agree on a row give the same row. -/
theorem lin_row {N N' K H : ℕ} (a : (⟨2, ![N, K]⟩ : Shape).Idx → EReal) (a' : (⟨2, ![N', K]⟩ : Shape).Idx → EReal)
    (W : (⟨2, ![K, H]⟩ : Shape).Idx → EReal) (b g be m v : Fin H → EReal) (r : Fin N) (r' : Fin N') (j : Fin H)
    (h : ∀ k : Fin K, a (ix2 r k) = a' (ix2 r' k)) :
    lin a W b g be m v (ix2 r j) = lin a' W b g be m v (ix2 r' j) := by
  unfold lin
  have : (∑ k : Fin K, a (ix2 r k) * W (ix2 k j)) = ∑ k : Fin K, a' (ix2 r' k) * W (ix2 k j) :=
    Finset.sum_congr rfl fun k _ => by rw [h k]
  exact congrArg (fun s => bn (s + b j) (m j) (v j) (g j) (be j)) this

/-- Two dense stages with a rectifier between them: one layer's perceptron and its outer normalisation. -/
def layer {N K H D : ℕ} (z : (⟨2, ![N, K]⟩ : Shape).Idx → EReal) (W1 : (⟨2, ![K, H]⟩ : Shape).Idx → EReal)
    (b1 g1 be1 m1 v1 : Fin H → EReal) (W2 : (⟨2, ![H, D]⟩ : Shape).Idx → EReal) (b2 g2 be2 m2 v2 : Fin D → EReal) :
    (⟨2, ![N, D]⟩ : Shape).Idx → EReal :=
  lin (relu (lin z W1 b1 g1 be1 m1 v1)) W2 b2 g2 be2 m2 v2

/-- A layer reads only the row it is asked for. -/
theorem layer_row {N N' K H D : ℕ} (z : (⟨2, ![N, K]⟩ : Shape).Idx → EReal) (z' : (⟨2, ![N', K]⟩ : Shape).Idx → EReal)
    (W1 : (⟨2, ![K, H]⟩ : Shape).Idx → EReal) (b1 g1 be1 m1 v1 : Fin H → EReal)
    (W2 : (⟨2, ![H, D]⟩ : Shape).Idx → EReal) (b2 g2 be2 m2 v2 : Fin D → EReal) (r : Fin N) (r' : Fin N') (j : Fin D)
    (h : ∀ k : Fin K, z (ix2 r k) = z' (ix2 r' k)) :
    layer z W1 b1 g1 be1 m1 v1 W2 b2 g2 be2 m2 v2 (ix2 r j) = layer z' W1 b1 g1 be1 m1 v1 W2 b2 g2 be2 m2 v2 (ix2 r' j) :=
  lin_row _ _ W2 b2 g2 be2 m2 v2 r r' j fun k => by
    show max (lin z W1 b1 g1 be1 m1 v1 (ix2 r k)) zero = max (lin z' W1 b1 g1 be1 m1 v1 (ix2 r' k)) zero
    rw [lin_row z z' W1 b1 g1 be1 m1 v1 r r' k h]

/-! ## A plain product's contraction is a sum over the middle coordinate -/

/-- For the dimension numbers of an M×K by K×N product, the sum over the contraction index is the sum over `Fin K` of
    row entry times column entry. -/
theorem plain_sum {M K N : ℕ} (l : (⟨2, ![M, K]⟩ : Shape).Idx → EReal) (r : (⟨2, ![K, N]⟩ : Shape).Idx → EReal)
    (j : (⟨2, ![M, N]⟩ : Shape).Idx) :
    (∑ k : (DotDims.plain M K N).contr.Idx, l ((DotDims.plain M K N).lhsIdx j k) * r ((DotDims.plain M K N).rhsIdx j k))
      = ∑ k : Fin K, l (ix2 (j 0) k) * r (ix2 k (j 1)) := by
  refine (Equiv.sum_comp (contrEquiv1 (DotDims.plain M K N) K rfl rfl).symm _).symm.trans (Finset.sum_congr rfl fun k _ => ?_)
  have hl : (DotDims.plain M K N).lhsIdx j ((contrEquiv1 (DotDims.plain M K N) K rfl rfl).symm k) = ix2 (j 0) k := by
    funext a; apply Fin.ext
    match a with
    | ⟨0, _⟩ => rfl
    | ⟨1, _⟩ => exact contrEquiv1_symm_val (DotDims.plain M K N) K rfl rfl k
  have hr : (DotDims.plain M K N).rhsIdx j ((contrEquiv1 (DotDims.plain M K N) K rfl rfl).symm k) = ix2 k (j 1) := by
    funext a; apply Fin.ext
    match a with
    | ⟨0, _⟩ => exact contrEquiv1_symm_val (DotDims.plain M K N) K rfl rfl k
    | ⟨1, _⟩ => rfl
  exact congrArg₂ (fun x y => l x * r y) hl hr

/-! ## The two spellings of the rectifier -/

theorem vec_relu {S : Shape} (x : FVec Ideal S .f32) :
    maximumf x (broadcast S (Scalar.ofBits .f32 0x00000000#32)) = relu x := rfl

theorem host_relu {S : Shape} (h0 : (⟨0, ![]⟩ : Shape).BroadcastsInDim S ![]) (x : FVec Ideal S .f32) :
    maximumf x (broadcastInDim S ![] h0 (constant (⟨0, ![]⟩ : Shape) .f32 0x00000000#32)) = relu x := rfl

/-! ## The vector dialect's spelling of a dense stage -/

/-- A row vector broadcast down the rows, read at (p, q), is its entry q. -/
theorem bcast_row {N H : ℕ} (hb : (⟨2, ![1, H]⟩ : Shape).Broadcasts ⟨2, ![N, H]⟩) (x : (⟨2, ![1, H]⟩ : Shape).Idx → EReal)
    (p : Fin N) (q : Fin H) : broadcastTo (⟨2, ![N, H]⟩ : Shape) x hb (ix2 p q) = x (ix2 0 q) := by
  refine broadcastTo_apply x hb (ix2 p q) (ix2 0 q) fun a => ?_
  match a with
  | ⟨0, _⟩ => simp
  | ⟨1, _⟩ =>
    show q.val = if H = 1 then 0 else q.val
    split
    · rename_i h; have := q.isLt; omega
    · rfl

theorem vec_lin {N K H : ℕ} {φa φw : FTy} (d : DotDims ⟨2, ![N, K]⟩ ⟨2, ![K, H]⟩ ⟨2, ![N, H]⟩) (hd : d = DotDims.plain N K H)
    (hb : (⟨2, ![1, H]⟩ : Shape).Broadcasts ⟨2, ![N, H]⟩)
    (a : FVec Ideal ⟨2, ![N, K]⟩ φa) (W : FVec Ideal ⟨2, ![K, H]⟩ φw) (b g be m v : FVec Ideal ⟨2, ![1, H]⟩ .f32) :
    addf (mulf (mulf (subf (addf (matmul d none a W (constant ⟨2, ![N, H]⟩ .f32 0x00000000#32)) (broadcastTo ⟨2, ![N, H]⟩ b hb))
        (broadcastTo ⟨2, ![N, H]⟩ m hb))
        (broadcastTo ⟨2, ![N, H]⟩ (rsqrt (addf v (broadcast ⟨2, ![1, H]⟩ (Scalar.ofBits .f32 0x3727C5AC#32)))) hb))
        (broadcastTo ⟨2, ![N, H]⟩ g hb)) (broadcastTo ⟨2, ![N, H]⟩ be hb)
      = lin a W (row b) (row g) (row be) (row m) (row v) := by
  subst hd
  funext i
  obtain ⟨p, q, rfl⟩ : ∃ (p : Fin N) (q : Fin H), i = ix2 p q := ⟨i 0, i 1, eq_ix2 i⟩
  simp only [addf_apply, mulf_apply, subf_apply]
  have hm : matmul (DotDims.plain N K H) none a W (constant ⟨2, ![N, H]⟩ .f32 0x00000000#32) (ix2 p q)
      = ∑ k : Fin K, a (ix2 p k) * W (ix2 k q) := by
    rw [show matmul (DotDims.plain N K H) none a W (constant ⟨2, ![N, H]⟩ .f32 0x00000000#32) (ix2 p q) = _ from
      Ideal.matmul_constant_zero_apply (DotDims.plain N K H) none a W (ix2 p q)]
    exact plain_sum a W (ix2 p q)
  rw [bcast_row hb b p q, bcast_row hb m p q, bcast_row hb g p q, bcast_row hb be p q, bcast_row hb _ p q, hm]
  rfl

/-! ## The host's spelling of a dense stage -/

/-- A vector broadcast to a one-row matrix and then down the rows, read at (p, q), is its entry q. -/
theorem bcast_two {N H : ℕ} (h1 : (⟨1, ![H]⟩ : Shape).BroadcastsInDim ⟨2, ![1, H]⟩ ![1])
    (h2 : (⟨2, ![1, H]⟩ : Shape).BroadcastsInDim ⟨2, ![N, H]⟩ ![0, 1]) (x : (⟨1, ![H]⟩ : Shape).Idx → EReal) (p : Fin N) (q : Fin H) :
    broadcastInDim (⟨2, ![N, H]⟩ : Shape) ![0, 1] h2 (broadcastInDim (⟨2, ![1, H]⟩ : Shape) ![1] h1 x) (ix2 p q) = x (ix1 q) := by
  refine (broadcastInDim_apply ![0, 1] h2 _ (ix2 p q) (ix2 0 q) fun a => ?_).trans
    (broadcastInDim_apply ![1] h1 x (ix2 0 q) (ix1 q) fun a => ?_)
  · match a with
    | ⟨0, _⟩ => simp
    | ⟨1, _⟩ =>
      show q.val = if H = 1 then 0 else q.val
      split
      · rename_i h; have := q.isLt; omega
      · rfl
  · match a with
    | ⟨0, _⟩ =>
      show q.val = if H = 1 then 0 else q.val
      split
      · rename_i h; have := q.isLt; omega
      · rfl

theorem host_lin {N K H : ℕ} {φa φw : FTy} (d : DotDims ⟨2, ![N, K]⟩ ⟨2, ![K, H]⟩ ⟨2, ![N, H]⟩) (hd : d = DotDims.plain N K H)
    (h0 : (⟨0, ![]⟩ : Shape).BroadcastsInDim ⟨1, ![H]⟩ ![])
    (h1 : (⟨1, ![H]⟩ : Shape).BroadcastsInDim ⟨2, ![1, H]⟩ ![1])
    (h2 : (⟨2, ![1, H]⟩ : Shape).BroadcastsInDim ⟨2, ![N, H]⟩ ![0, 1])
    (a : FVec Ideal ⟨2, ![N, K]⟩ φa) (W : FVec Ideal ⟨2, ![K, H]⟩ φw) (b g be m v : FVec Ideal ⟨1, ![H]⟩ .f32) :
    addf (mulf (mulf (subf (addf (Host.dotGeneral d none a W)
          (broadcastInDim (⟨2, ![N, H]⟩ : Shape) ![0, 1] h2 (broadcastInDim (⟨2, ![1, H]⟩ : Shape) ![1] h1 b)))
          (broadcastInDim (⟨2, ![N, H]⟩ : Shape) ![0, 1] h2 (broadcastInDim (⟨2, ![1, H]⟩ : Shape) ![1] h1 m)))
          (broadcastInDim (⟨2, ![N, H]⟩ : Shape) ![0, 1] h2 (broadcastInDim (⟨2, ![1, H]⟩ : Shape) ![1] h1
            (Host.rsqrt (addf v (broadcastInDim (⟨1, ![H]⟩ : Shape) ![] h0 (constant (⟨0, ![]⟩ : Shape) .f32 0x3727C5AC#32)))))))
          (broadcastInDim (⟨2, ![N, H]⟩ : Shape) ![0, 1] h2 (broadcastInDim (⟨2, ![1, H]⟩ : Shape) ![1] h1 g)))
          (broadcastInDim (⟨2, ![N, H]⟩ : Shape) ![0, 1] h2 (broadcastInDim (⟨2, ![1, H]⟩ : Shape) ![1] h1 be))
      = lin a W (vec b) (vec g) (vec be) (vec m) (vec v) := by
  subst hd
  funext i
  obtain ⟨p, q, rfl⟩ : ∃ (p : Fin N) (q : Fin H), i = ix2 p q := ⟨i 0, i 1, eq_ix2 i⟩
  simp only [addf_apply, mulf_apply, subf_apply]
  have hm : Host.dotGeneral (DotDims.plain N K H) none a W (ix2 p q) = ∑ k : Fin K, a (ix2 p k) * W (ix2 k q) := by
    rw [show Host.dotGeneral (DotDims.plain N K H) none a W (ix2 p q) = _ from
      Ideal.dotGeneral_apply (DotDims.plain N K H) none .single a W (ix2 p q)]
    exact plain_sum a W (ix2 p q)
  rw [bcast_two h1 h2 b p q, bcast_two h1 h2 m p q, bcast_two h1 h2 g p q, bcast_two h1 h2 be p q, bcast_two h1 h2 _ p q, hm]
  rfl

end Cert.Mlp

end
-- ==== Proof.LibColumn.lean ====
/-
  A vector kept as a column and spread along its rows: the two layout steps a row statistic (a row's maximum,
  a row's sum) goes through before it meets the `[a, b]` array it was taken from. A length-`a` vector cast to
  `[a, 1]` reads, at `(p, 0)`, entry `p`; an `[a, 1]` column broadcast to `[a, b]` reads, at `(p, s)`, the
  column's entry `(p, 0)`, whatever `s` is.
-/
import Idealize.ShloMosaic.Lib.Pipeline.Value
import Idealize.ShloMosaic.Lib.ValueIdx

noncomputable section

namespace Cert.Attn.Column

open Idealize.ShloMosaic Idealize.ShloMosaic.ValueIdx

variable {α : Type}

/-- A length-`a` vector cast to an `[a, 1]` column reads, at `(p, u)`, the vector at `p`: both sit at row-major
    position `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- An `[a, 1]` column broadcast to `[a, b]` reads, at `(p, s)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (s : Fin b) :
    broadcastTo ⟨2, ![a, b]⟩ v h (ix2 p s) = v (ix2 p (0 : Fin 1)) := by
  refine broadcastTo_apply v h (ix2 p s) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else s.val
    rw [if_pos rfl]

end Cert.Attn.Column

end
-- ==== Proof.KReg0.lean ====
/-
  What pallas_call 0 leaves in its output array, as one function of the arrays it reads.

  The kernel walks the 100000 rows in 20 blocks of 5000. At block t it reads rows 5000 t … 5000 t + 4999 of x and of
  the scale column, all of W, and stores  (x_blk W) scaled row by row  over its whole output block. G0 reads only the
  row it is asked for, so that block is rows 5000 t … 5000 t + 4999 of  G0 x W v ; the 20 blocks tile the rows, so
  the array ends holding  G0 x W v .
-/
import proofs.«405914_j52123723104402_3_alg».proof.Proof.Gen.KernelIdeal.Frame
import proofs.«405914_j52123723104402_3_alg».proof.Proof.LibGcnDense
import proofs.«405914_j52123723104402_3_alg».proof.Proof.LibMlp
import proofs.«405914_j52123723104402_3_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.ShloMosaic.ValueIdx
open Idealize.SL.Sem
open Idealize.ShloMosaic.Pipeline (Dat Cfg Window)

/-! ## The stored value at an index -/

/-- The body's loads and its store start at offsets (0, 0). -/
private theorem prescale_offsets_zero : (![0, 0] : Fin 2 → Nat) = fun _ => 0 := funext fun a => by fin_cases a <;> rfl

/-- The product's dimension numbers are those of a plain [5000,128] by [128,128] product. -/
private theorem prescale_dot_plain : dot_S5000x128_S128x128_S5000x128_1_0_0_1_n_n = DotDims.plain 5000 128 128 := rfl

/-- The stored value at (p, q): row p of the first block against column q of the second, summed over the 128 middle
    coordinates (the narrowing of the operands is the identity on the extended reals, the accumulator is zero), times
    entry p of the column (the two casts are to the column's own shape; the broadcast repeats entry (p, 0) along the row). -/
private theorem prescale_payload_apply (x0 : Vec Ideal S5000x128 .f32) (x1 : Vec Ideal S128x128 .f32) (x2 : Vec Ideal S5000x1 .f32)
    (p : Fin 5000) (q : Fin 128) :
    k0_pay1 x0 x1 x2 (ix2 p q) = (∑ k : Fin 128, x0 (ix2 p k) * x1 (ix2 k q)) * x2 (ix2 p (0 : Fin 1)) := by
  unfold k0_pay1
  simp only [mulf_apply]
  have hm : matmul dot_S5000x128_S128x128_S5000x128_1_0_0_1_n_n none (truncf .bf16 x0 bitsLt_bf16_f32)
      (truncf .bf16 x1 bitsLt_bf16_f32) (constant (F := Ideal) S5000x128 .f32 0x00000000#32) (ix2 p q)
        = ∑ k : Fin 128, x0 (ix2 p k) * x1 (ix2 k q) := by
    rw [prescale_dot_plain]
    refine (Ideal.matmul_constant_zero_apply (DotDims.plain 5000 128 128) none _ _ (ix2 p q)).trans ?_
    exact Cert.Mlp.plain_sum (M := 5000) (K := 128) (N := 128) x0 x1 (ix2 p q)
  have hb : broadcastTo S5000x128
      (shapeCast S5000x1 (shapeCast S5000x1 x2 shapeCasts_S5000x1_S5000x1) shapeCasts_S5000x1_S5000x1)
      broadcasts_S5000x1_S5000x128 (ix2 p q) = x2 (ix2 p (0 : Fin 1)) := by
    rw [shapeCast_self, shapeCast_self]
    exact Cert.Attn.Column.broadcastTo_a1_ab_apply x2 broadcasts_S5000x1_S5000x128 p q
  exact congrArg₂ (· * ·) hm hb

/-- G0 at an index from the row and the column it reads: a sum of products a k * b k times s is G0 x W v at i as soon as
    a is row (i 0) of x, b is column (i 1) of W and s is entry (i 0) of v. -/
private theorem G0_of_row_col {N K H : ℕ} (x : (⟨2, ![N, K]⟩ : Shape).Idx → EReal) (W : (⟨2, ![K, H]⟩ : Shape).Idx → EReal)
    (v : (⟨2, ![N, 1]⟩ : Shape).Idx → EReal) (i : (⟨2, ![N, H]⟩ : Shape).Idx) (a : Fin K → EReal) (b : Fin K → EReal) (s : EReal)
    (ha : ∀ k : Fin K, a k = x (ix2 (i 0) k)) (hb : ∀ k : Fin K, b k = W (ix2 k (i 1))) (hs : s = v (ix2 (i 0) 0)) :
    (∑ k : Fin K, a k * b k) * s = Cert.Gcn.G0 x W v i := by
  show _ = (∑ k : Fin K, x (ix2 (i 0) k) * W (ix2 k (i 1))) * v (ix2 (i 0) 0)
  rw [hs, Finset.sum_congr rfl fun k _ => by rw [ha k, hb k]]

variable (V : (c : Dev nD) → (b : Ref sig .tc) → Buf (Elt Ideal) ((c : Thread nD τ).loc b))

/-! ## The blocks the kernel reads at a point -/

/-- The index maps over the 20 points: the row blocks of x, of the column and of the output are block (t, 0), W's is
    block (0, 0). -/
private theorem prescale_index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Entry (p, k) of x's block at point t is entry (5000 t + p, k) of x. -/
private theorem x_block_apply (c : Dev nD) (t : Fin cfg0.N) (p : Fin 5000) (k : Fin 128) (i : S100000x128.Idx)
    (h0 : (i 0).val = t.val * 5000 + p.val) (h1 : (i 1).val = k.val) :
    (iblk0 V c 0 t : Vec Ideal S5000x128 .f32) (ix2 p k) = (V c (Pipeline.arrRef spec0 0) : S100000x128.Idx → EReal) i := by
  obtain ⟨e0, e1, -⟩ := prescale_index_maps t
  unfold iblk0
  rw [View.read_apply]
  refine congrArg (V c (Pipeline.arrRef spec0 0) : S100000x128.Idx → EReal) ?_
  funext a; apply Fin.ext
  match a with
  | ⟨0, _⟩ => show win0_0.index t (0 : Fin 2) * 5000 + 1 * p.val = (i 0).val; omega
  | ⟨1, _⟩ => show win0_0.index t (1 : Fin 2) * 128 + 1 * k.val = (i 1).val; omega

/-- W's block at every point is W. -/
private theorem w_block_apply (c : Dev nD) (t : Fin cfg0.N) (k : Fin 128) (q : Fin 128) (i : S128x128.Idx)
    (h0 : (i 0).val = k.val) (h1 : (i 1).val = q.val) :
    (iblk0 V c 1 t : Vec Ideal S128x128 .f32) (ix2 k q) = (V c (Pipeline.arrRef spec0 1) : S128x128.Idx → EReal) i := by
  obtain ⟨-, -, e0, e1, -⟩ := prescale_index_maps t
  unfold iblk0
  rw [View.read_apply]
  refine congrArg (V c (Pipeline.arrRef spec0 1) : S128x128.Idx → EReal) ?_
  funext a; apply Fin.ext
  match a with
  | ⟨0, _⟩ => show win0_1.index t (0 : Fin 2) * 128 + 1 * k.val = (i 0).val; omega
  | ⟨1, _⟩ => show win0_1.index t (1 : Fin 2) * 128 + 1 * q.val = (i 1).val; omega

/-- Entry (p, 0) of the column's block at point t is entry (5000 t + p, 0) of the column. -/
private theorem scale_block_apply (c : Dev nD) (t : Fin cfg0.N) (p : Fin 5000) (u : Fin 1) (i : S100000x1.Idx)
    (h0 : (i 0).val = t.val * 5000 + p.val) :
    (iblk0 V c 2 t : Vec Ideal S5000x1 .f32) (ix2 p u) = (V c (Pipeline.arrRef spec0 2) : S100000x1.Idx → EReal) i := by
  obtain ⟨-, -, -, -, e0, e1, -⟩ := prescale_index_maps t
  unfold iblk0
  rw [View.read_apply]
  refine congrArg (V c (Pipeline.arrRef spec0 2) : S100000x1.Idx → EReal) ?_
  funext a; apply Fin.ext
  match a with
  | ⟨0, _⟩ => show win0_2.index t (0 : Fin 2) * 5000 + 1 * p.val = (i 0).val; omega
  | ⟨1, _⟩ =>
    show win0_2.index t (1 : Fin 2) * 1 + 1 * u.val = (i 1).val
    have hi : (i 1).val < 1 := (i 1).isLt
    omega

/-! ## What a point writes back, and the array after all points -/

/-- Point t writes back rows 5000 t … 5000 t + 4999 of G0 x W v: the stored value at (p, q) reads row p of x's block,
    which is row 5000 t + p of x, column q of W, and entry p of the column's block, which is entry 5000 t + p. -/
private theorem prescale_writeback (c : Dev nD) (t : Fin cfg0.N) :
    (dat0 (F := Ideal) V c).flushed 3 t = ((cfg0.win 3).blk t).view.read (Elt Ideal)
      (Cert.Gcn.G0 (V c (Pipeline.arrRef spec0 0) : S100000x128.Idx → EReal) (V c (Pipeline.arrRef spec0 1) : S128x128.Idx → EReal)
          (V c (Pipeline.arrRef spec0 2) : S100000x1.Idx → EReal)) := by
  show (cfg0.win 3).cut (grid0.coords t) ((dat0 V c).after 3 t) = _
  rw [after0_3]
  unfold Gen.out0_3
  rw [View.canon_unit_zero prescale_offsets_zero]
  simp only [View.ld_unit_zero (S := S5000x128) prescale_offsets_zero, View.ld_unit_zero (S := S128x128) prescale_offsets_zero,
    View.ld_unit_zero (S := S5000x1) prescale_offsets_zero]
  obtain ⟨-, -, -, -, -, -, e0, e1⟩ := prescale_index_maps t
  funext j
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (ix2 p q)
    = Cert.Gcn.G0 (V c (Pipeline.arrRef spec0 0) : S100000x128.Idx → EReal) (V c (Pipeline.arrRef spec0 1) : S128x128.Idx → EReal)
          (V c (Pipeline.arrRef spec0 2) : S100000x1.Idx → EReal) (((cfg0.win 3).blk t).view.emb (ix2 p q))
  refine (prescale_payload_apply (iblk0 V c 0 t) (iblk0 V c 1 t) (iblk0 V c 2 t) p q).trans ?_
  -- where entry (p, q) of the output's block sits in the array: row 5000 t + p, column q
  have c0 : ((((cfg0.win 3).blk t).view.emb (ix2 p q) : S100000x128.Idx) 0).val = t.val * 5000 + p.val := by
    show win0_3.index t (0 : Fin 2) * 5000 + 1 * p.val = _; omega
  have c1 : ((((cfg0.win 3).blk t).view.emb (ix2 p q) : S100000x128.Idx) 1).val = q.val := by
    show win0_3.index t (1 : Fin 2) * 128 + 1 * q.val = _; omega
  refine G0_of_row_col _ _ _ _ _ _ _ (fun k => ?_) (fun k => ?_) ?_
  · exact x_block_apply V c t p k _ c0 rfl
  · exact w_block_apply V c t k q _ rfl c1
  · exact scale_block_apply V c t p 0 _ c0

/-- An index of the output array is in point t's block iff each coordinate is in the block's range on its axis. -/
private theorem mem_out_block (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v18).slice (win0_3.rect t)).set ↔ _
  rw [View.set_slice_whole, Rect.mem_set_unit]
  exact Iff.rfl

/-- The 20 row blocks tile the array: row r is in the block of point r / 5000, which writes back. -/
private theorem out_blocks_cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by rw [show cfg0.N = 20 from N_0]; omega⟩, rfl⟩
  obtain ⟨-, -, -, -, -, -, e0, e1⟩ := prescale_index_maps t
  refine ⟨t, flush0_3 t, ?_⟩
  rw [mem_out_block]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- After its 20 points pallas_call 0's output array holds G0 of the three arrays it reads, whatever the buffers held
    when the call was entered: every point writes back its rows of that one function, and the points' blocks cover the array. -/
theorem region0_value (c : Dev nD) :
    ((dat0 (F := Ideal) V c).arrAt 3 cfg0.N : S100000x128.Idx → EReal)
      = Cert.Gcn.G0 (V c (Pipeline.arrRef spec0 0) : S100000x128.Idx → EReal) (V c (Pipeline.arrRef spec0 1) : S128x128.Idx → EReal)
          (V c (Pipeline.arrRef spec0 2) : S100000x1.Idx → EReal) :=
  (dat0 (F := Ideal) V c).arrAt_eq_of_cover 3 _ (fun t _ => prescale_writeback V c t) out_blocks_cover

end Cert.KernelIdeal.Hand

end
-- ==== Proof.KReg1.lean ====
/-
  What pallas_call 1 leaves in its output array, as one function of the arrays it reads.
-/
import proofs.«405914_j52123723104402_3_alg».proof.Proof.Gen.KernelIdeal.Frame
import proofs.«405914_j52123723104402_3_alg».proof.Proof.LibGcnDense
import proofs.«405914_j52123723104402_3_alg».proof.Proof.LibMlp
import proofs.«405914_j52123723104402_3_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The kernel's dimension numbers are those of a plain 5000×128 by 128×64 product. -/
private theorem dot_plain : dot_S5000x128_S128x64_S5000x64_1_0_0_1_n_n = DotDims.plain 5000 128 64 := rfl

/-- What the body stores, index by index: from a block of rows x0, the matching block x1 of the scale column, the bias
    row x2 and the weight matrix x3, the rows are scaled, shifted by the bias and rectified, multiplied into x3, and
    scaled again: the same function of the blocks as the whole-array map is of the arrays. The two format changes are
    the identity on the extended reals, the casts are between equal shapes, and the accumulator is the zero splat. -/
private theorem stored_eq_G1 (x0 : Vec Ideal S5000x128 .f32) (x1 : Vec Ideal S5000x1 .f32) (x2 : Vec Ideal S1x128 .f32)
    (x3 : Vec Ideal S128x64 .f32) :
    (k1_pay1 x1 x2 x0 x3 x1 : S5000x64.Idx → EReal)
      = Cert.Gcn.G1 (N := 5000) (K := 128) (H := 64) x0 x1 x2 x3 := by
  funext i
  obtain ⟨p, q, rfl⟩ : ∃ (p : Fin 5000) (q : Fin 64), i = ix2 p q := ⟨i 0, i 1, eq_ix2 i⟩
  unfold k1_pay1
  simp only [shapeCast_self]
  rw [dot_plain, mulf_apply]
  rw [show matmul (DotDims.plain 5000 128 64) none
        (truncf FTy.bf16
          (maximumf
            (addf (mulf x0 (broadcastTo S5000x128 x1 broadcasts_S5000x1_S5000x128))
              (broadcastTo S5000x128 x2 broadcasts_S1x128_S5000x128))
            (broadcast S5000x128 (Scalar.ofBits (F := Ideal) FTy.f32 0#32)))
          bitsLt_bf16_f32)
        (truncf FTy.bf16 x3 bitsLt_bf16_f32) (constant S5000x64 FTy.f32 0#32) (ix2 p q) = _ from
      Ideal.matmul_constant_zero_apply (DotDims.plain 5000 128 64) none _ _ (ix2 p q)]
  rw [Cert.Mlp.plain_sum, Cert.Attn.Column.broadcastTo_a1_ab_apply x1 broadcasts_S5000x1_S5000x64 p q]
  show _ = (∑ k : Fin 128, max (x0 (ix2 p k) * x1 (ix2 p 0) + x2 (ix2 0 k)) 0 * x3 (ix2 k q)) * x1 (ix2 p 0)
  refine congrArg (· * x1 (ix2 p 0)) (Finset.sum_congr rfl fun k _ => ?_)
  show max (x0 (ix2 p k) * broadcastTo S5000x128 x1 broadcasts_S5000x1_S5000x128 (ix2 p k)
        + broadcastTo S5000x128 x2 broadcasts_S1x128_S5000x128 (ix2 p k)) (Ideal.ofBits .f32 0x00000000#32) * x3 (ix2 k q) = _
  rw [Cert.Attn.Column.broadcastTo_a1_ab_apply x1 broadcasts_S5000x1_S5000x128 p k,
    Cert.Mlp.bcast_row broadcasts_S1x128_S5000x128 x2 p k, Ideal.ofBits_zero_f32]

/-- The map reads only the row it is asked for. If a block of rows x0 and a block x1 of the column are rows
    n·5000 + p of the arrays A0 and A1 (for p inside the block), then at a block index j and the array index i
    that lies n·5000 rows further down in the same column, the map of the blocks is the map of the arrays. -/
private theorem G1_row_local (A0 : S100000x128.Idx → EReal) (A1 : S100000x1.Idx → EReal) (b : S1x128.Idx → EReal)
    (W : S128x64.Idx → EReal) (x0 : S5000x128.Idx → EReal) (x1 : S5000x1.Idx → EReal) (n : ℕ)
    (h0 : ∀ (y : S5000x128.Idx) (z : S100000x128.Idx), (z 0).val = n * 5000 + (y 0).val → (z 1).val = (y 1).val → x0 y = A0 z)
    (h1 : ∀ (y : S5000x1.Idx) (z : S100000x1.Idx), (z 0).val = n * 5000 + (y 0).val → (z 1).val = (y 1).val → x1 y = A1 z)
    (p : Fin 5000) (q : Fin 64) (r : Fin 100000) (hr : r.val = n * 5000 + p.val) :
    Cert.Gcn.G1 (N := 5000) (K := 128) (H := 64) x0 x1 b W (ix2 p q)
      = Cert.Gcn.G1 (N := 100000) (K := 128) (H := 64) A0 A1 b W (ix2 r q) := by
  have hv : x1 (ix2 p 0) = A1 (ix2 r 0) := h1 (ix2 p 0) (ix2 r 0) hr rfl
  show (∑ k : Fin 128, max (x0 (ix2 p k) * x1 (ix2 p 0) + b (ix2 0 k)) 0 * W (ix2 k q)) * x1 (ix2 p 0)
      = (∑ k : Fin 128, max (A0 (ix2 r k) * A1 (ix2 r 0) + b (ix2 0 k)) 0 * W (ix2 k q)) * A1 (ix2 r 0)
  rw [hv]
  refine congrArg (· * A1 (ix2 r 0)) (Finset.sum_congr rfl fun k _ => ?_)
  rw [h0 (ix2 p k) (ix2 r k) hr rfl]

/-- The same over arbitrary indices: a block index j and an array index i in the same column, n·5000 rows apart. -/
private theorem G1_row_local_idx (A0 : S100000x128.Idx → EReal) (A1 : S100000x1.Idx → EReal) (b : S1x128.Idx → EReal)
    (W : S128x64.Idx → EReal) (x0 : S5000x128.Idx → EReal) (x1 : S5000x1.Idx → EReal) (n : ℕ)
    (h0 : ∀ (y : S5000x128.Idx) (z : S100000x128.Idx), (z 0).val = n * 5000 + (y 0).val → (z 1).val = (y 1).val → x0 y = A0 z)
    (h1 : ∀ (y : S5000x1.Idx) (z : S100000x1.Idx), (z 0).val = n * 5000 + (y 0).val → (z 1).val = (y 1).val → x1 y = A1 z)
    (j : S5000x64.Idx) (i : S100000x64.Idx) (hi0 : (i 0).val = n * 5000 + (j 0).val) (hi1 : (i 1).val = (j 1).val) :
    Cert.Gcn.G1 (N := 5000) (K := 128) (H := 64) x0 x1 b W j
      = Cert.Gcn.G1 (N := 100000) (K := 128) (H := 64) A0 A1 b W i := by
  obtain ⟨p, q, rfl⟩ : ∃ (p : Fin 5000) (q : Fin 64), j = ix2 p q := ⟨j 0, j 1, eq_ix2 j⟩
  obtain ⟨r, s, rfl⟩ : ∃ (r : Fin 100000) (s : Fin 64), i = ix2 r s := ⟨i 0, i 1, eq_ix2 i⟩
  obtain rfl : s = q := Fin.ext hi1
  exact G1_row_local A0 A1 b W x0 x1 n h0 h1 p s r hi0

/-- The zero offsets of a whole-block access, as the constant function. -/
private theorem zero_offsets : (![0, 0] : Fin 2 → Nat) = fun _ => 0 := funext fun a => by fin_cases a <;> rfl

/-- The index maps, decided over the 20 grid points: the rows, the column and the output move together, block t
    at point t, and stay in block column 0; the bias row and the weight matrix stay at block (0, 0). -/
private theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The block of rows at point t is rows 5000·t … 5000·t + 4999 of the array of rows. -/
private theorem rows_blk (c : Dev nD) (t : Fin cfg1.N) (y : S5000x128.Idx) (z : S100000x128.Idx)
    (h0 : (z 0).val = t.val * 5000 + (y 0).val) (h1 : (z 1).val = (y 1).val) :
    (iblk1 V c 0 t : Vec Ideal S5000x128 .f32) y = (V c (Pipeline.arrRef spec1 0) : S100000x128.Idx → EReal) z := by
  obtain ⟨e0, e1, -⟩ := block_indices t
  unfold iblk1
  rw [View.read_apply]
  show (V c (Pipeline.arrRef spec1 0) : S100000x128.Idx → EReal) (((cfg1.win 0).blk t).view.emb y) = _
  refine congrArg (V c (Pipeline.arrRef spec1 0) : S100000x128.Idx → EReal) ?_
  funext a; apply Fin.ext
  match a with
  | ⟨0, _⟩ => show win1_0.index t (0 : Fin 2) * 5000 + 1 * (y 0).val = (z 0).val; omega
  | ⟨1, _⟩ => show win1_0.index t (1 : Fin 2) * 128 + 1 * (y 1).val = (z 1).val; omega

/-- The block of the scale column at point t is entries 5000·t … 5000·t + 4999 of the column. -/
private theorem col_blk (c : Dev nD) (t : Fin cfg1.N) (y : S5000x1.Idx) (z : S100000x1.Idx)
    (h0 : (z 0).val = t.val * 5000 + (y 0).val) (h1 : (z 1).val = (y 1).val) :
    (iblk1 V c 1 t : Vec Ideal S5000x1 .f32) y = (V c (Pipeline.arrRef spec1 1) : S100000x1.Idx → EReal) z := by
  obtain ⟨-, -, e0, e1, -⟩ := block_indices t
  unfold iblk1
  rw [View.read_apply]
  show (V c (Pipeline.arrRef spec1 1) : S100000x1.Idx → EReal) (((cfg1.win 1).blk t).view.emb y) = _
  refine congrArg (V c (Pipeline.arrRef spec1 1) : S100000x1.Idx → EReal) ?_
  funext a; apply Fin.ext
  match a with
  | ⟨0, _⟩ => show win1_1.index t (0 : Fin 2) * 5000 + 1 * (y 0).val = (z 0).val; omega
  | ⟨1, _⟩ => show win1_1.index t (1 : Fin 2) * 1 + 1 * (y 1).val = (z 1).val; omega

/-- The bias row's block is the whole bias row at every point. -/
private theorem bias_blk (c : Dev nD) (t : Fin cfg1.N) :
    (iblk1 V c 2 t : Vec Ideal S1x128 .f32) = (V c (Pipeline.arrRef spec1 2) : S1x128.Idx → EReal) := by
  obtain ⟨-, -, -, -, e0, e1, -⟩ := block_indices t
  unfold iblk1
  funext y
  rw [View.read_apply]
  show (V c (Pipeline.arrRef spec1 2) : S1x128.Idx → EReal) (((cfg1.win 2).blk t).view.emb y) = _
  refine congrArg (V c (Pipeline.arrRef spec1 2) : S1x128.Idx → EReal) ?_
  funext a; apply Fin.ext
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- The weight matrix's block is the whole matrix at every point. -/
private theorem weight_blk (c : Dev nD) (t : Fin cfg1.N) :
    (iblk1 V c 3 t : Vec Ideal S128x64 .f32) = (V c (Pipeline.arrRef spec1 3) : S128x64.Idx → EReal) := by
  obtain ⟨-, -, -, -, -, -, e0, e1, -⟩ := block_indices t
  unfold iblk1
  funext y
  rw [View.read_apply]
  show (V c (Pipeline.arrRef spec1 3) : S128x64.Idx → EReal) (((cfg1.win 3).blk t).view.emb y) = _
  refine congrArg (V c (Pipeline.arrRef spec1 3) : S128x64.Idx → EReal) ?_
  funext a; apply Fin.ext
  match a with
  | ⟨0, _⟩ => show win1_3.index t (0 : Fin 2) * 128 + 1 * (y 0).val = (y 0).val; omega
  | ⟨1, _⟩ => show win1_3.index t (1 : Fin 2) * 64 + 1 * (y 1).val = (y 1).val; omega

/-- What point t writes back is block t of the whole-array map of the arrays as the call finds them. -/
private theorem written_back_eq (c : Dev nD) (t : Fin cfg1.N) :
    (dat1 (F := Ideal) V c).flushed 4 t = ((cfg1.win 4).blk t).view.read (Elt Ideal)
      (Cert.Gcn.G1 (V c (Pipeline.arrRef spec1 0) : S100000x128.Idx → EReal) (V c (Pipeline.arrRef spec1 1) : S100000x1.Idx → EReal)
        (V c (Pipeline.arrRef spec1 2) : S1x128.Idx → EReal) (V c (Pipeline.arrRef spec1 3) : S128x64.Idx → EReal)) := by
  show (cfg1.win 4).cut (grid1.coords t) ((dat1 V c).after 4 t) = _
  rw [after1_4]
  unfold out1_4
  rw [View.canon_unit_zero zero_offsets]
  simp only [View.ld_unit_zero (S := S5000x128) zero_offsets, View.ld_unit_zero (S := S5000x1) zero_offsets,
    View.ld_unit_zero (S := S1x128) zero_offsets, View.ld_unit_zero (S := S128x64) zero_offsets]
  rw [stored_eq_G1, bias_blk V c t, weight_blk V c t]
  obtain ⟨-, -, -, -, -, -, -, -, e0, e1⟩ := block_indices t
  refine funext fun j => ?_
  rw [View.read_apply]
  refine G1_row_local_idx _ _ _ _ _ _ t.val (fun y z => rows_blk V c t y z) (fun y z => col_blk V c t y z)
    ((cfg1.win 4).xinj (grid1.coords t) j) (((cfg1.win 4).blk t).view.emb j) ?_ ?_
  · show win1_4.index t (0 : Fin 2) * 5000 + 1 * (j 0).val = t.val * 5000 + (j 0).val; omega
  · show win1_4.index t (1 : Fin 2) * 64 + 1 * (j 1).val = (j 1).val; omega

/-- An index of the output array lies in point t's block iff each coordinate lies in the block's range on its axis. -/
private theorem mem_row_block (t : Fin cfg1.N) (i : S100000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v24).slice (win1_4.rect t)).set ↔ _
  rw [View.set_slice_whole, Rect.mem_set_unit]
  exact Iff.rfl

/-- The twenty row blocks cover the output array: row r lies in the block of point r / 5000, and every point writes
    its block back. -/
private theorem row_blocks_cover (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, -, -, e0, e1⟩ := block_indices t
  refine ⟨t, flush1_4 t, ?_⟩
  rw [mem_row_block]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 64 ≤ (i 1).val ∧ (i 1).val < win1_4.index t (1 : Fin 2) * 64 + 64
    omega

/-- After its twenty points the call's output array holds the whole-array map of the four arrays it reads: every
    point writes back the block of that map its rows name, and the blocks cover the array. -/
theorem region1_value (c : Dev nD) :
    ((dat1 (F := Ideal) V c).arrAt 4 cfg1.N : S100000x64.Idx → EReal)
      = Cert.Gcn.G1 (V c (Pipeline.arrRef spec1 0) : S100000x128.Idx → EReal) (V c (Pipeline.arrRef spec1 1) : S100000x1.Idx → EReal)
          (V c (Pipeline.arrRef spec1 2) : S1x128.Idx → EReal) (V c (Pipeline.arrRef spec1 3) : S128x64.Idx → EReal) :=
  (dat1 (F := Ideal) V c).arrAt_eq_of_cover 4
    (Cert.Gcn.G1 (V c (Pipeline.arrRef spec1 0) : S100000x128.Idx → EReal) (V c (Pipeline.arrRef spec1 1) : S100000x1.Idx → EReal)
      (V c (Pipeline.arrRef spec1 2) : S1x128.Idx → EReal) (V c (Pipeline.arrRef spec1 3) : S128x64.Idx → EReal))
    (fun t _ => written_back_eq V c t) row_blocks_cover

end Cert.KernelIdeal.Hand

end
-- ==== Proof.KReg2.lean ====
/-
  What pallas_call 2 leaves in its output array, as one function of the arrays it reads.

  The call walks twenty row blocks of 5000 rows. At each it multiplies the block of aggregated rows by the block of
  the scale column, spread along the rows, adds the bias row, spread down the rows, and stores the result as the
  output's block. Entry (r, q) of  G2 a v b  reads only row r of a and of v, so a row block of  G2  of the arrays is
  the same function of their row blocks; the twenty blocks tile the 100000 rows; hence the output array ends holding
  G2  of the three arrays, whatever they held when the call was entered.
-/
import proofs.«405914_j52123723104402_3_alg».proof.Proof.Gen.KernelIdeal.Frame
import proofs.«405914_j52123723104402_3_alg».proof.Proof.LibGcnDense
import proofs.«405914_j52123723104402_3_alg».proof.Proof.LibMlp
import proofs.«405914_j52123723104402_3_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## The stored value at an index -/

/-- The zero offsets of an access to a whole buffer, however they are spelt. -/
private theorem zero_offsets : (![0, 0] : Fin 2 → Nat) = fun _ => 0 := funext fun a => by fin_cases a <;> rfl

/-- The scale-and-bias map at plain coordinates: entry (r, q) of the rows, times entry r of the column, plus
    entry q of the bias row. It reads only row r of the rows and of the column. -/
private theorem scaleBias_apply {N H : ℕ} (a : (⟨2, ![N, H]⟩ : Shape).Idx → EReal) (v : (⟨2, ![N, 1]⟩ : Shape).Idx → EReal)
    (b : (⟨2, ![1, H]⟩ : Shape).Idx → EReal) (r : Fin N) (q : Fin H) :
    Cert.Gcn.G2 a v b (ix2 r q) = a (ix2 r q) * v (ix2 r 0) + b (ix2 0 q) := rfl

/-- The body's stored value at row p, column q of the block: the rows' entry times the column's entry of that
    row, plus the bias row's entry of that column. The casts to the same shape are the identity, the column is
    spread along its rows and the bias row down the rows. -/
private theorem stored_apply (x1 : Vec Ideal S5000x1 .f32) (x2 : Vec Ideal S1x64 .f32) (x0 : Vec Ideal S5000x64 .f32)
    (p : Fin 5000) (q : Fin 64) :
    (k2_pay1 x1 x2 x0 : S5000x64.Idx → EReal) (ix2 p q) = x0 (ix2 p q) * x1 (ix2 p 0) + x2 (ix2 0 q) := by
  unfold k2_pay1
  simp only [shapeCast_self]
  rw [addf_apply, mulf_apply, Cert.Attn.Column.broadcastTo_a1_ab_apply x1 broadcasts_S5000x1_S5000x64 p q,
    Cert.Mlp.bcast_row broadcasts_S1x64_S5000x64 x2 p q]

/-- A row block of the result is the same function of the row blocks: when entry (p, q) of the rows' block is the
    rows' entry at an index i of the array, entry p of the column's block the column's entry of row i 0, and
    entry q of the bias block the bias row's entry of column i 1, the body's stored value at (p, q) is the
    scale-and-bias map of the arrays at i. -/
private theorem stored_eq_scaleBias (A0 : S100000x64.Idx → EReal) (A1 : S100000x1.Idx → EReal) (A2 : S1x64.Idx → EReal)
    (x0 : Vec Ideal S5000x64 .f32) (x1 : Vec Ideal S5000x1 .f32) (x2 : Vec Ideal S1x64 .f32)
    (p : Fin 5000) (q : Fin 64) (i : S100000x64.Idx)
    (h0 : x0 (ix2 p q) = A0 i) (h1 : x1 (ix2 p 0) = A1 (ix2 (i 0) 0)) (h2 : x2 (ix2 0 q) = A2 (ix2 0 (i 1))) :
    (k2_pay1 x1 x2 x0 : S5000x64.Idx → EReal) (ix2 p q) = Cert.Gcn.G2 A0 A1 A2 i := by
  rw [stored_apply, h0, h1, h2]
  rfl

/-! ## The blocks the windows hold at a point -/

/-- The printed index maps over the grid: the rows', the column's and the output's block index along the rows is
    the point's number, along the columns zero; the bias row's is zero on both axes. -/
private theorem block_indices : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Entry (p, q) of the rows' block at point t is the rows' entry at row 5000 t + p, column q: a block's coordinate
    in its array is the block index times the block's size plus the coordinate inside the block. -/
private theorem rows_block (c : Dev nD) (t : Fin cfg2.N) (p : Fin 5000) (q : Fin 64) (i : S100000x64.Idx)
    (h0 : (i 0).val = t.val * 5000 + p.val) (h1 : (i 1).val = q.val) :
    (iblk2 V c 0 t : Vec Ideal S5000x64 .f32) (ix2 p q) = (V c (Pipeline.arrRef spec2 0) : S100000x64.Idx → EReal) i := by
  obtain ⟨e0, e1, -⟩ := block_indices t
  show V c (Pipeline.arrRef spec2 0) (((cfg2.win 0).blk t).view.emb (ix2 p q)) = V c (Pipeline.arrRef spec2 0) i
  refine congrArg _ (funext fun a => Fin.ext ?_)
  match a with
  | ⟨0, _⟩ => show win2_0.index t (0 : Fin 2) * 5000 + 1 * p.val = (i 0).val; omega
  | ⟨1, _⟩ => show win2_0.index t (1 : Fin 2) * 64 + 1 * q.val = (i 1).val; omega

/-- Entry p of the scale column's block at point t is the column's entry at row 5000 t + p. -/
private theorem column_block (c : Dev nD) (t : Fin cfg2.N) (p : Fin 5000) (i : S100000x1.Idx)
    (h0 : (i 0).val = t.val * 5000 + p.val) :
    (iblk2 V c 1 t : Vec Ideal S5000x1 .f32) (ix2 p 0) = (V c (Pipeline.arrRef spec2 1) : S100000x1.Idx → EReal) i := by
  obtain ⟨-, -, e0, e1, -⟩ := block_indices t
  show V c (Pipeline.arrRef spec2 1) (((cfg2.win 1).blk t).view.emb (ix2 p (0 : Fin 1) : S5000x1.Idx)) = V c (Pipeline.arrRef spec2 1) i
  refine congrArg _ (funext fun a => Fin.ext ?_)
  match a with
  | ⟨0, _⟩ => show win2_1.index t (0 : Fin 2) * 5000 + 1 * p.val = (i 0).val; omega
  | ⟨1, _⟩ => show win2_1.index t (1 : Fin 2) * 1 + 1 * 0 = (i 1).val; have hi : (i 1).val < 1 := (i 1).isLt; omega

/-- The bias row's block is the whole row at every point. -/
private theorem bias_block (c : Dev nD) (t : Fin cfg2.N) (q : Fin 64) (i : S1x64.Idx) (h1 : (i 1).val = q.val) :
    (iblk2 V c 2 t : Vec Ideal S1x64 .f32) (ix2 0 q) = (V c (Pipeline.arrRef spec2 2) : S1x64.Idx → EReal) i := by
  obtain ⟨-, -, -, -, e0, e1, -⟩ := block_indices t
  show V c (Pipeline.arrRef spec2 2) (((cfg2.win 2).blk t).view.emb (ix2 (0 : Fin 1) q : S1x64.Idx)) = V c (Pipeline.arrRef spec2 2) i
  refine congrArg _ (funext fun a => Fin.ext ?_)
  match a with
  | ⟨0, _⟩ => show win2_2.index t (0 : Fin 2) * 1 + 1 * 0 = (i 0).val; have hi : (i 0).val < 1 := (i 0).isLt; omega
  | ⟨1, _⟩ => show win2_2.index t (1 : Fin 2) * 64 + 1 * q.val = (i 1).val; omega

/-! ## From the blocks to the array -/

/-- What point t writes back is block t of the scale-and-bias map of the three arrays as the call finds them:
    the body's one store covers its buffer, its loads read the whole input blocks, and each input block's entry
    sits in its array where the output block's rectangle says. -/
private theorem written_back (c : Dev nD) (t : Fin cfg2.N) :
    (dat2 (F := Ideal) V c).flushed 3 t = ((cfg2.win 3).blk t).view.read (Elt Ideal)
      (Cert.Gcn.G2 (V c (Pipeline.arrRef spec2 0) : S100000x64.Idx → EReal) (V c (Pipeline.arrRef spec2 1) : S100000x1.Idx → EReal)
          (V c (Pipeline.arrRef spec2 2) : S1x64.Idx → EReal)) := by
  show (cfg2.win 3).cut (grid2.coords t) ((dat2 V c).after 3 t) = _
  rw [after2_3]
  unfold out2_3
  rw [View.canon_unit_zero zero_offsets]
  simp only [View.ld_unit_zero (S := S5000x1) zero_offsets, View.ld_unit_zero (S := S1x64) zero_offsets,
    View.ld_unit_zero (S := S5000x64) zero_offsets]
  obtain ⟨-, -, -, -, -, -, e0, e1⟩ := block_indices t
  funext j
  obtain ⟨p, q, rfl⟩ : ∃ (p : Fin 5000) (q : Fin 64), j = ix2 p q := ⟨j 0, j 1, eq_ix2 j⟩
  have r0 : ((((cfg2.win 3).blk t).view.emb (ix2 p q) : S100000x64.Idx) 0).val = t.val * 5000 + p.val := by
    show win2_3.index t (0 : Fin 2) * 5000 + 1 * p.val = _; omega
  have r1 : ((((cfg2.win 3).blk t).view.emb (ix2 p q) : S100000x64.Idx) 1).val = q.val := by
    show win2_3.index t (1 : Fin 2) * 64 + 1 * q.val = _; omega
  exact stored_eq_scaleBias _ _ _ (iblk2 V c 0 t) (iblk2 V c 1 t) (iblk2 V c 2 t) p q (((cfg2.win 3).blk t).view.emb (ix2 p q))
    (rows_block V c t p q _ r0 r1) (column_block V c t p _ r0) (bias_block V c t q _ r1)

/-- An index of the array is in point t's block iff each coordinate is in the block's range on its axis. -/
private theorem mem_row_block (t : Fin cfg2.N) (i : S100000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v30).slice (win2_3.rect t)).set ↔ _
  rw [View.set_slice_whole, Rect.mem_set_unit]
  exact Iff.rfl

/-- The twenty row blocks tile the array: row r lies in the block of point r / 5000, which writes back. -/
private theorem row_blocks_cover (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  obtain ⟨t, ht⟩ : ∃ t : Fin cfg2.N, t.val = (i 0).val / 5000 :=
    ⟨⟨(i 0).val / 5000, by rw [show cfg2.N = 20 from N_2]; omega⟩, rfl⟩
  obtain ⟨-, -, -, -, -, -, e0, e1⟩ := block_indices t
  refine ⟨t, flush2_3 t, ?_⟩
  rw [mem_row_block]
  intro a
  match a with
  | ⟨0, _⟩ =>
    show win2_3.index t (0 : Fin 2) * 5000 ≤ (i 0).val ∧ (i 0).val < win2_3.index t (0 : Fin 2) * 5000 + 5000
    omega
  | ⟨1, _⟩ =>
    show win2_3.index t (1 : Fin 2) * 64 ≤ (i 1).val ∧ (i 1).val < win2_3.index t (1 : Fin 2) * 64 + 64
    omega

/-- After its twenty points, pallas_call 2's output array holds the rows scaled by the column plus the bias row,
    whatever the arrays held when the call was entered. -/
theorem region2_value (c : Dev nD) :
    ((dat2 (F := Ideal) V c).arrAt 3 cfg2.N : S100000x64.Idx → EReal)
      = Cert.Gcn.G2 (V c (Pipeline.arrRef spec2 0) : S100000x64.Idx → EReal) (V c (Pipeline.arrRef spec2 1) : S100000x1.Idx → EReal)
          (V c (Pipeline.arrRef spec2 2) : S1x64.Idx → EReal) :=
  (dat2 (F := Ideal) V c).arrAt_eq_of_cover 3 _ (fun t _ => written_back V c t) row_blocks_cover

end Cert.KernelIdeal.Hand

end
-- ==== Proof.KValue.lean ====
/-
  The kernel program's result as one function of its arguments: the three pallas_calls' whole-array maps composed
  through the host operations between them. Boundary by boundary: at the first call's entry the buffers hold the
  clipped edge lists and the inverse-square-root degree column; the first call leaves the scaled product; the
  gather and scatter-add between the calls aggregate it; and so on to the last call's output.
-/
import proofs.«405914_j52123723104402_3_alg».proof.Proof.KRun
import proofs.«405914_j52123723104402_3_alg».proof.Proof.KHost
import proofs.«405914_j52123723104402_3_alg».proof.Proof.KReg0
import proofs.«405914_j52123723104402_3_alg».proof.Proof.KReg1
import proofs.«405914_j52123723104402_3_alg».proof.Proof.KReg2

set_option maxRecDepth 16384

noncomputable section

namespace Cert.KernelIdeal.Hand

open Cert.KernelIdeal Cert.KernelIdeal.Gen Idealize.ShloMosaic Idealize.ShloMosaic.TcCoe Idealize.ShloMosaic.StableHlo
open Idealize.SL.Sem

/-- The kernel's result from its six arguments. -/
def Kout (x : S100000x128.Idx → EReal) (W1 : S128x128.Idx → EReal) (b1 : S128.Idx → EReal) (W2 : S128x64.Idx → EReal)
    (b2 : S64.Idx → EReal) (E : IVec S2x1600000 32) : S100000x64.Idx → EReal :=
  Cert.Gcn.G2
    (agg64 (F := Ideal) (take64 (F := Ideal)
      (Cert.Gcn.G1 (agg128 (F := Ideal) (take128 (F := Ideal) (Cert.Gcn.G0 x W1 (dcolOf (F := Ideal) (clipW (catRow1 E)))) (clipW (catRow0 E)))
          (clipW (catRow1 E)))
        (dcolOf (F := Ideal) (clipW (catRow1 E))) (rowB1 (F := Ideal) b1) W2)
      (clipW (catRow0 E))) (clipW (catRow1 E)))
    (dcolOf (F := Ideal) (clipW (catRow1 E))) (rowB2 (F := Ideal) b2)

variable (m : (ℓ : Loc nD τ sig) → Buf (Elt Ideal) ℓ) (ρ : Dev nD → PrngReg)

/-- The clipped sources, the clipped destinations and the degree column at the launch memory's edge list. -/
abbrev sK (c : Dev nD) : IVec S1700000 32 := clipW (catRow0 (m ((c : Thread nD τ).loc main_arg5)))
abbrev dK (c : Dev nD) : IVec S1700000 32 := clipW (catRow1 (m ((c : Thread nD τ).loc main_arg5)))
abbrev vK (c : Dev nD) : FVec Ideal S100000x1 .f32 := dcolOf (F := Ideal) (dK m c)

/-! ## The first call's entry -/

theorem W7_v7 (c : Dev nD) : W7 m ρ c (Proc.devRef .tc main_v7) = sK m c := pre_v7 (W0 m ρ c)
theorem W7_v8 (c : Dev nD) : W7 m ρ c (Proc.devRef .tc main_v8) = dK m c := pre_v8 (W0 m ρ c)
theorem W7_v17 (c : Dev nD) : W7 m ρ c (Proc.devRef .tc main_v17) = vK m c := pre_v17 (W0 m ρ c)
theorem W7_arg0 (c : Dev nD) : W7 m ρ c (Proc.devRef .tc main_arg0) = m ((c : Thread nD τ).loc main_arg0) := pre_arg0 (W0 m ρ c)
theorem W7_arg1 (c : Dev nD) : W7 m ρ c (Proc.devRef .tc main_arg1) = m ((c : Thread nD τ).loc main_arg1) := pre_arg1 (W0 m ρ c)
theorem W7_arg2 (c : Dev nD) : W7 m ρ c (Proc.devRef .tc main_arg2) = m ((c : Thread nD τ).loc main_arg2) := pre_arg2 (W0 m ρ c)
theorem W7_arg3 (c : Dev nD) : W7 m ρ c (Proc.devRef .tc main_arg3) = m ((c : Thread nD τ).loc main_arg3) := pre_arg3 (W0 m ρ c)
theorem W7_arg4 (c : Dev nD) : W7 m ρ c (Proc.devRef .tc main_arg4) = m ((c : Thread nD τ).loc main_arg4) := pre_arg4 (W0 m ρ c)

/-! ## The first call's exit -/

/-- The scaled first product. -/
abbrev h1K (c : Dev nD) : S100000x128.Idx → EReal :=
  Cert.Gcn.G0 (m ((c : Thread nD τ).loc main_arg0)) (m ((c : Thread nD τ).loc main_arg1)) (vK m c)

theorem W8_v18 (c : Dev nD) : W8 m ρ c (Proc.devRef .tc main_v18) = h1K m c := by
  have h := region0_value (V7 m ρ) c
  have e0 : V7 m ρ c (Pipeline.arrRef spec0 0) = m ((c : Thread nD τ).loc main_arg0) := W7_arg0 m ρ c
  have e1 : V7 m ρ c (Pipeline.arrRef spec0 1) = m ((c : Thread nD τ).loc main_arg1) := W7_arg1 m ρ c
  have e2 : V7 m ρ c (Pipeline.arrRef spec0 2) = vK m c := W7_v17 m ρ c
  rw [e0, e1, e2] at h
  exact (W8_arr m ρ c 3).trans h

theorem W8_v7 (c : Dev nD) : W8 m ρ c (Proc.devRef .tc main_v7) = sK m c := (W8_of_ne m ρ c main_v7 (by decide)).trans (W7_v7 m ρ c)
theorem W8_v8 (c : Dev nD) : W8 m ρ c (Proc.devRef .tc main_v8) = dK m c := (W8_of_ne m ρ c main_v8 (by decide)).trans (W7_v8 m ρ c)
theorem W8_v17 (c : Dev nD) : W8 m ρ c (Proc.devRef .tc main_v17) = vK m c :=
  (W8_arr m ρ c 2).trans (((dat0 (V7 m ρ) c).arrAt_in 2 rfl _).trans ((A_eq0 (V7 m ρ) c 2).trans (W7_v17 m ρ c)))
theorem W8_arg2 (c : Dev nD) : W8 m ρ c (Proc.devRef .tc main_arg2) = m ((c : Thread nD τ).loc main_arg2) := (W8_of_ne m ρ c main_arg2 (by decide)).trans (W7_arg2 m ρ c)
theorem W8_arg3 (c : Dev nD) : W8 m ρ c (Proc.devRef .tc main_arg3) = m ((c : Thread nD τ).loc main_arg3) := (W8_of_ne m ρ c main_arg3 (by decide)).trans (W7_arg3 m ρ c)
theorem W8_arg4 (c : Dev nD) : W8 m ρ c (Proc.devRef .tc main_arg4) = m ((c : Thread nD τ).loc main_arg4) := (W8_of_ne m ρ c main_arg4 (by decide)).trans (W7_arg4 m ρ c)

/-! ## The second call's entry -/

/-- The first aggregate. -/
abbrev a1K (c : Dev nD) : S100000x128.Idx → EReal := agg128 (F := Ideal) (take128 (F := Ideal) (h1K m c) (sK m c)) (dK m c)

theorem W10_v22 (c : Dev nD) : W10 m ρ c (Proc.devRef .tc main_v22) = a1K m c := by
  refine (mid1_v22 (W8 m ρ c)).trans ?_
  rw [W8_v18, W8_v7, W8_v8]
theorem W10_v23 (c : Dev nD) : W10 m ρ c (Proc.devRef .tc main_v23) = rowB1 (F := Ideal) (m ((c : Thread nD τ).loc main_arg2)) := by
  refine (mid1_v23 (W8 m ρ c)).trans ?_
  rw [W8_arg2]
theorem W10_v17 (c : Dev nD) : W10 m ρ c (Proc.devRef .tc main_v17) = vK m c := (mid1_v17 (W8 m ρ c)).trans (W8_v17 m ρ c)
theorem W10_v7 (c : Dev nD) : W10 m ρ c (Proc.devRef .tc main_v7) = sK m c := (mid1_v7 (W8 m ρ c)).trans (W8_v7 m ρ c)
theorem W10_v8 (c : Dev nD) : W10 m ρ c (Proc.devRef .tc main_v8) = dK m c := (mid1_v8 (W8 m ρ c)).trans (W8_v8 m ρ c)
theorem W10_arg3 (c : Dev nD) : W10 m ρ c (Proc.devRef .tc main_arg3) = m ((c : Thread nD τ).loc main_arg3) := (mid1_arg3 (W8 m ρ c)).trans (W8_arg3 m ρ c)
theorem W10_arg4 (c : Dev nD) : W10 m ρ c (Proc.devRef .tc main_arg4) = m ((c : Thread nD τ).loc main_arg4) := (mid1_arg4 (W8 m ρ c)).trans (W8_arg4 m ρ c)

/-! ## The second call's exit -/

/-- The scaled second product. -/
abbrev h2K (c : Dev nD) : S100000x64.Idx → EReal :=
  Cert.Gcn.G1 (a1K m c) (vK m c) (rowB1 (F := Ideal) (m ((c : Thread nD τ).loc main_arg2))) (m ((c : Thread nD τ).loc main_arg3))

theorem W11_v24 (c : Dev nD) : W11 m ρ c (Proc.devRef .tc main_v24) = h2K m c := by
  have h := region1_value (V10 m ρ) c
  have e0 : V10 m ρ c (Pipeline.arrRef spec1 0) = a1K m c := W10_v22 m ρ c
  have e1 : V10 m ρ c (Pipeline.arrRef spec1 1) = vK m c := W10_v17 m ρ c
  have e2 : V10 m ρ c (Pipeline.arrRef spec1 2) = rowB1 (F := Ideal) (m ((c : Thread nD τ).loc main_arg2)) := W10_v23 m ρ c
  have e3 : V10 m ρ c (Pipeline.arrRef spec1 3) = m ((c : Thread nD τ).loc main_arg3) := W10_arg3 m ρ c
  rw [e0, e1, e2, e3] at h
  exact (W11_arr m ρ c 4).trans h

theorem W11_v7 (c : Dev nD) : W11 m ρ c (Proc.devRef .tc main_v7) = sK m c := (W11_of_ne m ρ c main_v7 (by decide)).trans (W10_v7 m ρ c)
theorem W11_v8 (c : Dev nD) : W11 m ρ c (Proc.devRef .tc main_v8) = dK m c := (W11_of_ne m ρ c main_v8 (by decide)).trans (W10_v8 m ρ c)
theorem W11_v17 (c : Dev nD) : W11 m ρ c (Proc.devRef .tc main_v17) = vK m c :=
  (W11_arr m ρ c 1).trans (((dat1 (V10 m ρ) c).arrAt_in 1 rfl _).trans ((A_eq1 (V10 m ρ) c 1).trans (W10_v17 m ρ c)))
theorem W11_arg4 (c : Dev nD) : W11 m ρ c (Proc.devRef .tc main_arg4) = m ((c : Thread nD τ).loc main_arg4) := (W11_of_ne m ρ c main_arg4 (by decide)).trans (W10_arg4 m ρ c)

/-! ## The third call's entry and exit -/

/-- The second aggregate. -/
abbrev a2K (c : Dev nD) : S100000x64.Idx → EReal := agg64 (F := Ideal) (take64 (F := Ideal) (h2K m c) (sK m c)) (dK m c)

theorem W13_v28 (c : Dev nD) : W13 m ρ c (Proc.devRef .tc main_v28) = a2K m c := by
  refine (mid2_v28 (W11 m ρ c)).trans ?_
  rw [W11_v24, W11_v7, W11_v8]
theorem W13_v29 (c : Dev nD) : W13 m ρ c (Proc.devRef .tc main_v29) = rowB2 (F := Ideal) (m ((c : Thread nD τ).loc main_arg4)) := by
  refine (mid2_v29 (W11 m ρ c)).trans ?_
  rw [W11_arg4]
theorem W13_v17 (c : Dev nD) : W13 m ρ c (Proc.devRef .tc main_v17) = vK m c := (mid2_v17 (W11 m ρ c)).trans (W11_v17 m ρ c)

/-- The result buffer at the last boundary is the kernel's function of the launch memory's arguments. -/
theorem W14_v30 (c : Dev nD) :
    W14 m ρ c (Proc.devRef .tc main_v30)
      = Kout (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  have h := region2_value (V13 m ρ) c
  have e0 : V13 m ρ c (Pipeline.arrRef spec2 0) = a2K m c := W13_v28 m ρ c
  have e1 : V13 m ρ c (Pipeline.arrRef spec2 1) = vK m c := W13_v17 m ρ c
  have e2 : V13 m ρ c (Pipeline.arrRef spec2 2) = rowB2 (F := Ideal) (m ((c : Thread nD τ).loc main_arg4)) := W13_v29 m ρ c
  rw [e0, e1, e2] at h
  exact (W14_arr m ρ c 3).trans h

/-- THE KERNEL'S RUN: every weakly fair execution terminates with the result at the kernel's function of the arguments
    and the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v30)
        = Kout (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (W14_v30 m ρ c), (h c).2⟩) (run_out m ρ)

end Cert.KernelIdeal.Hand

end
-- ==== Proof.LibIndexWrap.lean ====
/-
  Signed index words wrapped the NumPy way, and masks that are all ones.

  An index word `s` into an axis of extent `n` is wrapped as `if s < 0 then s + n else s` (signed compare, wrapping
  add). If `-n ≤ s < n` as a signed integer, the wrapped word lies in `[0, n)`, so a range test
  `0 ≤ s' ∧ s' ≤ n - 1` of it is the bit 1 (`wrap_inRange`, `rangeTest_wrap`). A reduce by `and` from the initial
  bit 1 over bits that are all 1 is 1 at every result index (`reduce_andi_of_all`, the converse of the library's
  `Host.reduce_andi_eq_one`), and a select under a mask that is 1 everywhere is its first branch (`select_of_ones`).
-/
import Idealize.ShloMosaic.Lib.ReduceAll
import Idealize.ShloMosaic.Lib.StableHlo.Predicate

namespace Idealize.ShloMosaic.IndexWrap

open Idealize.ShloMosaic

/-- NumPy's wrap of a signed index word into an axis of extent `n`: a negative index counts from the end. -/
def wrapWord (n s : BitVec 32) : BitVec 32 := Scalar.select (IntOp.cmpi .slt s 0#32) (IntOp.addi s n) s

/-- A signed index in `[-n, n)` wraps into `[0, n)`. -/
theorem wrap_inRange (n : Nat) (hn : n < 2 ^ 30) (s : BitVec 32) (h1 : -(n : Int) ≤ s.toInt) (h2 : s.toInt < n) :
    0 ≤ (wrapWord (BitVec.ofNat 32 n) s).toInt ∧ (wrapWord (BitVec.ofNat 32 n) s).toInt < n := by
  have hz : (0#32 : BitVec 32).toInt = 0 := by decide
  have hnI : (BitVec.ofNat 32 n).toInt = n := StableHlo.Predicate.toInt_ofNat_small n (by omega)
  unfold wrapWord Scalar.select
  by_cases hs : IntOp.cmpi .slt s 0#32 = 1
  · rw [if_pos hs]
    have hneg : s.toInt < 0 := by have := IntOp.cmpi_slt.1 hs; rwa [hz] at this
    have hsum : (IntOp.addi s (BitVec.ofNat 32 n)).toInt = s.toInt + n := by
      rw [IntOp.addi, BitVec.toInt_add, hnI]
      exact Int.bmod_eq_of_le (by omega) (by omega)
    rw [hsum]; omega
  · rw [if_neg hs]
    have hnn : ¬ s.toInt < 0 := fun h => hs (IntOp.cmpi_slt.2 (by rw [hz]; exact h))
    omega

/-- The range test `0 ≤ s' ∧ s' ≤ hi` (signed) of a wrapped index, `hi` the word of `n - 1`, is the bit 1. -/
theorem rangeTest_wrap (n : Nat) (hn0 : 0 < n) (hn : n < 2 ^ 30) (hi : BitVec 32) (hhi : hi.toInt = (n : Int) - 1)
    (s : BitVec 32) (h1 : -(n : Int) ≤ s.toInt) (h2 : s.toInt < n) :
    IntOp.andi (IntOp.cmpi .sge (wrapWord (BitVec.ofNat 32 n) s) 0#32) (IntOp.cmpi .sle (wrapWord (BitVec.ofNat 32 n) s) hi) = 1#1 := by
  have hz : (0#32 : BitVec 32).toInt = 0 := by decide
  obtain ⟨h0, hlt⟩ := wrap_inRange n hn s h1 h2
  exact IntOp.andi_eq_one.2 ⟨IntOp.cmpi_sge.2 (by rw [hz]; exact h0), IntOp.cmpi_sle.2 (by rw [hhi]; omega)⟩

/-- A left fold by `and` from 1 over bits that are all 1 is 1. -/
theorem foldl_andi_ones {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    rw [List.foldl_cons]
    exact foldl_andi_ones f l _ (IntOp.andi_eq_one.2 ⟨h, hl a (List.mem_cons_self ..)⟩) (fun n hn => hl n (List.mem_cons_of_mem _ hn))

/-- A reduce by `and` from the initial bit 1 over an operand that is 1 everywhere is 1 at every result index. -/
theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  exact foldl_andi_ones x _ _ (hinit _) (fun i _ => hx i)

/-- Under a mask that is 1 everywhere a select is its first branch. -/
theorem select_of_ones {α : Type} {s : Shape} (c : IVec s 1) (a b : s.Idx → α) (hc : ∀ i, c i = 1#1) : select c a b = a :=
  funext fun i => by
    show Scalar.select (c i) (a i) (b i) = a i
    rw [hc i]; exact if_pos rfl

end Idealize.ShloMosaic.IndexWrap
-- ==== Proof.Range.lean ====
/-
  Edge indices that lie in the node range [0, 100000): what the precondition says of the edge list, what follows
  for the two edge lists with their self loops, and what the kernel's defensive steps then do: clipping an index that
  is already in range, and NumPy's wrap of a negative index, leave it as it is; a row gather whose out-of-range rows
  would be filled with NaN fills none, so it is the plain gather.
-/
import proofs.«405914_j52123723104402_3_alg».proof.Proof.KDefs
import proofs.«405914_j52123723104402_3_alg».proof.Proof.LibIndexWrap
import proofs.«405914_j52123723104402_3_alg».proof.Proof.Gen.Pre_finite_inputs
import Idealize.ShloMosaic.Lib.ReduceAll
import Idealize.ShloMosaic.Lib.StableHlo.Predicate
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.ShloMosaic.ValueIdx

variable {F : FTy → Type} [FloatOps F]

/-- Every entry of the edge list is a node index. -/
def EdgesInRange (E : IVec S2x1600000 32) : Prop := ∀ i, 0 ≤ (E i).toInt ∧ (E i).toInt < 100000

/-- The precondition says so. -/
theorem edgesInRange_of_pre [Cert.Pre_finite_inputs.Facts] (x0 : FVec Ideal S100000x128 .f32) (x1 : FVec Ideal S128x128 .f32)
    (x2 : FVec Ideal S128 .f32) (x3 : FVec Ideal S128x64 .f32) (x4 : FVec Ideal S64 .f32) (E : IVec S2x1600000 32)
    (h : Cert.Pre_finite_inputs.fn (F := Ideal) x0 x1 x2 x3 x4 E = fun _ => 1#1) : EdgesInRange E := by
  have h0 := congrFun h ValueIdx.ix0
  dsimp only [Cert.Pre_finite_inputs.fn, Cert.Pre_finite_inputs.fn_part1] at h0
  -- The predicate is a conjunction whose last two conjuncts are "every entry is at least 0" and "every entry is
  -- below 100000", each a conjunction over all entries.
  obtain ⟨h1, hlt⟩ := IntOp.andi_eq_one.1 h0
  obtain ⟨_, hge⟩ := IntOp.andi_eq_one.1 h1
  haveI : Subsingleton Cert.Pre_finite_inputs.S_.Idx := ⟨fun a b => funext fun d => d.elim0⟩
  intro i
  have hge' := IntOp.cmpi_sge.1 (Host.reduce_andi_all _ _ _ _ _ hge i)
  have hlt' := IntOp.cmpi_slt.1 (Host.reduce_andi_all _ _ _ _ _ hlt i)
  have c0 : (0#32 : BitVec 32).toInt = 0 := by decide
  have c1 : (100000#32 : BitVec 32).toInt = 100000 := by decide
  exact ⟨c0 ▸ hge', c1 ▸ hlt'⟩

/-- A word whose signed value lies in [0, 100000) is below 100000 unsigned. -/
private theorem toNat_lt_of_toInt {a : BitVec 32} (h0 : 0 ≤ a.toInt) (h1 : a.toInt < 100000) : a.toNat < 100000 := by
  have hc := BitVec.toInt_eq_toNat_cond a
  have hl := a.isLt
  split at hc <;> omega

/-- A word below 100000 reads the same signed and unsigned. -/
private theorem toInt_small {a : BitVec 32} (ha : a.toNat < 100000) : a.toInt = a.toNat :=
  StableHlo.Predicate.toInt_eq_toNat_of_lt (by omega)

/-- Row r of the edge list, flattened, holds node indices. -/
private theorem row_lt (E : IVec S2x1600000 32) (hE : EdgesInRange E) (r : Fin 2)
    (h : S2x1600000.Slices ![r.val, 0] S1x1600000) (i : S1600000.Idx) :
    (shapeCast S1600000 (extractStridedSlice S1x1600000 ![r.val, 0] E h) shapeCasts_S1x1600000_S1600000 i).toNat < 100000 := by
  have hi : (i 0).val < 1600000 := (i 0).isLt
  -- The flattened position i is row 0, column i of the [1, 1600000] slice,
  let k : S1x1600000.Idx := fun a => match a with
    | ⟨0, _⟩ => ⟨0, Nat.one_pos⟩
    | ⟨1, _⟩ => ⟨(i 0).val, hi⟩
  -- which is row r, column i of the edge list.
  let m : S2x1600000.Idx := fun a => match a with
    | ⟨0, _⟩ => r
    | ⟨1, _⟩ => ⟨(i 0).val, hi⟩
  have e1 : shapeCast S1600000 (extractStridedSlice S1x1600000 ![r.val, 0] E h) shapeCasts_S1x1600000_S1600000 i
      = extractStridedSlice S1x1600000 ![r.val, 0] E h k := by
    generalize extractStridedSlice S1x1600000 ![r.val, 0] E h = y
    exact shapeCast_apply y shapeCasts_S1x1600000_S1600000 i k
      (by rewrite [Shape.rowMajor_val_two, Shape.rowMajor_val_one]; show 0 * 1600000 + (i 0).val = (i 0).val; omega)
  have e2 : extractStridedSlice S1x1600000 ![r.val, 0] E h k = E m :=
    extractStridedSlice_apply ![r.val, 0] E h k m (fun a => match a with
      | ⟨0, _⟩ => by show r.val = r.val + 0; omega
      | ⟨1, _⟩ => by show (i 0).val = 0 + (i 0).val; omega)
  rw [e1, e2]
  exact toNat_lt_of_toInt (hE m).1 (hE m).2

/-- Node indices followed by one self loop per node are node indices. -/
private theorem cat_lt (x : IVec S1600000 32) (hx : ∀ i, (x i).toNat < 100000) (e : S1700000.Idx) :
    (concatenate S1700000 0 [⟨S1600000, x⟩, ⟨S100000, iotaInDim S100000 32 0⟩]
      concatenates_S1600000_S100000_S1700000_d0 e).toNat < 100000 := by
  have he : (e 0).val < 1700000 := (e 0).isLt
  by_cases hc : (e 0).val < 1600000
  · -- A position among the edges.
    let i : S1600000.Idx := fun a => match a with | ⟨0, _⟩ => ⟨(e 0).val, hc⟩
    rw [concatenate_pair_apply_left 0 x (iotaInDim S100000 32 0) concatenates_S1600000_S100000_S1700000_d0 e rfl i
      (fun b => match b with | ⟨0, _⟩ => rfl)]
    exact hx i
  · -- A position among the self loops: the entry is the node's own number, which is below 100000.
    have hc' : (e 0).val - 1600000 < 100000 := by omega
    let i : S100000.Idx := fun a => match a with | ⟨0, _⟩ => ⟨(e 0).val - 1600000, hc'⟩
    rw [concatenate_pair_apply_right 0 x (iotaInDim S100000 32 0) concatenates_S1600000_S100000_S1700000_d0 e rfl rfl i
      (fun b hb => absurd (Fin.ext (by have h1 : b.val < 1 := b.isLt; show b.val = 0; omega)) hb)
      (by show (e 0).val - 1600000 + 1600000 = (e 0).val; omega)]
    show (BitVec.ofNat 32 ((e 0).val - 1600000)).toNat < 100000
    rw [BitVec.toNat_ofNat]
    exact lt_of_le_of_lt (Nat.mod_le _ _) hc'

/-- The sources with their self loops are node indices. -/
theorem catRow0_lt (E : IVec S2x1600000 32) (hE : EdgesInRange E) (e : S1700000.Idx) : (catRow0 E e).toNat < 100000 := by
  unfold catRow0
  exact cat_lt _ (fun i => row_lt E hE 0 slices_S2x1600000_S1x1600000_0_0 i) e

/-- The destinations with their self loops are node indices. -/
theorem catRow1_lt (E : IVec S2x1600000 32) (hE : EdgesInRange E) (e : S1700000.Idx) : (catRow1 E e).toNat < 100000 := by
  unfold catRow1
  exact cat_lt _ (fun i => row_lt E hE 1 slices_S2x1600000_S1x1600000_1_0 i) e

/-- Clipping node indices into [0, 99999] leaves them as they are. -/
theorem clipW_id (v : IVec S1700000 32) (hv : ∀ e, (v e).toNat < 100000) : clipW v = v := by
  funext e
  have hlt := hv e
  have hti := toInt_small hlt
  have h0 : (0#32 : BitVec 32).toInt = 0 := by decide
  have h9 : (99999#32 : BitVec 32).toInt = 99999 := by decide
  show IntOp.minsi 99999#32 (IntOp.maxsi 0#32 (v e)) = v e
  -- The word is not below 0, so the maximum with 0 is the word;
  have hmax : IntOp.maxsi 0#32 (v e) = v e := by
    unfold IntOp.maxsi
    exact if_neg (fun hc => by have := BitVec.slt_iff_toInt_lt.mp hc; omega)
  rw [hmax]
  -- and 99999 is not below the word, so the minimum with 99999 is the word.
  unfold IntOp.minsi
  exact if_neg (fun hc => by have := BitVec.slt_iff_toInt_lt.mp hc; omega)

/-- NumPy's wrap of a negative index leaves node indices as they are. -/
theorem wrapW_id (v : IVec S1700000 32) (hv : ∀ e, (v e).toNat < 100000) : wrapW v = v := by
  funext e
  have hti := toInt_small (hv e)
  have h0 : (0#32 : BitVec 32).toInt = 0 := by decide
  show Scalar.select (IntOp.cmpi .slt (v e) 0#32) (IntOp.addi (v e) 100000#32) (v e) = v e
  -- The word is not negative, so the wrap takes its second branch.
  unfold Scalar.select
  exact if_neg (fun hc => by have := IntOp.cmpi_slt.1 hc; omega)

/-- The range test of a column of node indices is 1 at every row. -/
private theorem maskW_ones (v : IVec S1700000 32) (hv : ∀ e, (v e).toNat < 100000) (j : S1700000.Idx) :
    maskW (colW v) j = 1#1 := by
  unfold maskW
  refine IndexWrap.reduce_andi_of_all _ _ _ _ (fun k => rfl) (fun i => ?_) j
  -- An entry of the column is an entry of the vector, so it lies in [0, 99999].
  obtain ⟨k, hk⟩ : ∃ k, colW v i = v k := ⟨_, rfl⟩
  have hti := toInt_small (hv k)
  have h0 : (0#32 : BitVec 32).toInt = 0 := by decide
  have h9 : (99999#32 : BitVec 32).toInt = 99999 := by decide
  show IntOp.andi (IntOp.cmpi .sge (colW v i) 0#32) (IntOp.cmpi .sle (colW v i) 99999#32) = 1#1
  rw [hk]
  exact IntOp.andi_eq_one.2 ⟨IntOp.cmpi_sge.2 (by omega), IntOp.cmpi_sle.2 (by have := hv k; omega)⟩

/-- Taking rows at node indices fills nothing: it is the plain row gather. -/
theorem take128_eq (T : FVec F S100000x128 .f32) (v : IVec S1700000 32) (hv : ∀ e, (v e).toNat < 100000) :
    take128 T v = Host.gather gather_S100000x128_S1700000x1_S1700000x128_1_0_n_n_0_1_1128 T (colW v) := by
  unfold take128
  rw [wrapW_id v hv]
  exact IndexWrap.select_of_ones _ _ _ (fun i => maskW_ones v hv _)

theorem take64_eq (T : FVec F S100000x64 .f32) (v : IVec S1700000 32) (hv : ∀ e, (v e).toNat < 100000) :
    take64 T v = Host.gather gather_S100000x64_S1700000x1_S1700000x64_1_0_n_n_0_1_164 T (colW v) := by
  unfold take64
  rw [wrapW_id v hv]
  exact IndexWrap.select_of_ones _ _ _ (fun i => maskW_ones v hv _)

end Cert.KernelIdeal.Hand

end
-- ==== Proof.LibGcnScale.lean ====
/-
  One graph-convolution layer with the symmetric degree normalisation, on the extended reals.

  The normalisation of an edge (s, d) is  dinv s * dinv d . A layer gathers the rows  h s  of a table along the
  edges, scales each by the edge's normalisation and adds it into row  d . Because  dinv d  is the same for every
  edge that lands on row  d , and because it is a non-negative real number, it can be taken out of the sum:
      sum over edges into d of  h s * (dinv s * dinv d)  =  (sum over edges into d of  h s * dinv s) * dinv d .
  The table may therefore be scaled by  dinv  before the gather and the sum scaled by  dinv  after the scatter.
  Multiplication by a non-negative real distributes over any finite sum of extended reals, so no summand has to be
  finite.
-/
import Idealize.ShloMosaic.PureOps.Ideal
import Idealize.ShloMosaic.PureOps.Ideal.Laws
import Idealize.ShloMosaic.Lib.ValueIdx
import Idealize.ShloMosaic.Lib.IdealHost
import Idealize.ShloMosaic.Lib.StableHlo.Predicate

noncomputable section

open Idealize.ShloMosaic Idealize.ShloMosaic.ValueIdx

namespace Cert.Gcn

/-- An extended real that is a non-negative real number. -/
def NN (x : EReal) : Prop := ∃ r : ℝ, 0 ≤ r ∧ x = (r : EReal)

/-- A non-negative real is non-negative as an extended real. -/
private theorem nn_nonneg {c : EReal} (hc : NN c) : 0 ≤ c := by
  obtain ⟨r, hr, rfl⟩ := hc
  exact_mod_cast hr

/-- A non-negative real is not the top element. -/
private theorem nn_ne_top {c : EReal} (hc : NN c) : c ≠ ⊤ := by
  obtain ⟨r, hr, rfl⟩ := hc
  exact EReal.coe_ne_top r

/-- Multiplication by a non-negative real distributes over a finite sum of extended reals. -/
theorem sum_mul_nn {ι : Type} (S : Finset ι) (f : ι → EReal) {c : EReal} (hc : NN c) :
    (∑ j ∈ S, f j) * c = ∑ j ∈ S, f j * c := by
  classical
  -- Induction on the index set: a finite non-negative factor distributes over one addition, whatever the two
  -- summands are.
  induction S using Finset.induction_on with
  | empty => simp
  | insert a S ha ih =>
    rw [Finset.sum_insert ha, Finset.sum_insert ha,
      EReal.right_distrib_of_nonneg_of_ne_top (nn_nonneg hc) (nn_ne_top hc), ih]

variable {s si su : Shape} {w : ℕ}

/-- A scatter-add into zeros whose every update carries a factor that depends only on the row it lands on, that
    factor a non-negative real: the factor comes out of the sum. -/
theorem scatterAdd_scale (d : ScatterDims s si su) (z : FVec Ideal s .f32) (hz : ∀ i, z i = 0) (idx : IVec si w)
    (u f : FVec Ideal su .f32) (r : s.Idx → EReal) (hr : ∀ i, NN (r i))
    (hf : ∀ j i, d.resultIdx? j idx = some i → f j = r i) (i : s.Idx) :
    Host.scatterAdd d z idx (mulf u f) i = Host.scatterAdd d z idx u i * r i := by
  -- Entry i of the scatter is the operand's entry plus the sum of the updates that land on i.
  show z i + ∑ j ∈ Finset.univ.filter (fun j => d.resultIdx? j idx = some i), (u j * f j)
     = (z i + ∑ j ∈ Finset.univ.filter (fun j => d.resultIdx? j idx = some i), u j) * r i
  rw [hz i, zero_add, zero_add, sum_mul_nn _ _ (hr i)]
  -- Every update in that sum lands on i, so its factor is  r i .
  refine Finset.sum_congr rfl fun j hj => ?_
  rw [hf j i (Finset.mem_filter.mp hj).2]

/-- A scatter-add of ones into zeros counts: every entry is a natural number. -/
theorem scatterAdd_ones (d : ScatterDims s si su) (z : FVec Ideal s .f32) (hz : ∀ i, z i = 0) (idx : IVec si w)
    (u : FVec Ideal su .f32) (hu : ∀ j, u j = 1) (i : s.Idx) :
    ∃ k : ℕ, Host.scatterAdd d z idx u i = ((k : ℝ) : EReal) := by
  -- The entry is the number of updates that land on i.
  refine ⟨(Finset.univ.filter (fun j => d.resultIdx? j idx = some i)).card, ?_⟩
  show z i + ∑ j ∈ Finset.univ.filter (fun j => d.resultIdx? j idx = some i), u j = _
  rw [hz i, zero_add, Finset.sum_congr rfl (fun j _ => hu j)]
  simp

/-- The inverse square root of a count, zero where the count is zero: a non-negative real. -/
theorem dinv_nn (k : ℕ) :
    NN (Scalar.select (Ideal.cmp .ogt ((k : ℝ) : EReal) 0) (Ideal.rsqrt ((k : ℝ) : EReal)) 0) := by
  by_cases hk : (0 : ℝ) < (k : ℝ)
  · -- A positive count: the comparison holds and the value is  1 / sqrt k , a non-negative real.
    have hc : Ideal.cmp .ogt ((k : ℝ) : EReal) 0 = 1#1 := by
      show BitVec.ofBool (decide ((0 : EReal) < ((k : ℝ) : EReal))) = 1#1
      rw [decide_eq_true (by exact_mod_cast hk)]; rfl
    rw [hc, select_one, Ideal.rsqrt_coe, if_neg (not_lt.mpr hk.le), if_neg hk.ne']
    exact ⟨(Real.sqrt (k : ℝ))⁻¹, inv_nonneg.mpr (Real.sqrt_nonneg _), rfl⟩
  · -- A zero count: the comparison fails and the value is 0.
    have hc : Ideal.cmp .ogt ((k : ℝ) : EReal) 0 = 0#1 := by
      show BitVec.ofBool (decide ((0 : EReal) < ((k : ℝ) : EReal))) = 0#1
      rw [decide_eq_false (by exact_mod_cast hk)]; rfl
    rw [hc, select_zero]
    exact ⟨0, le_refl _, rfl⟩

/-- The dimension numbers of a row scatter: updates [M, C] land on the rows of an [n, C] operand that an [M, 1] column
    of start indices names, column for column. -/
abbrev rowsScat (n C M : ℕ) (wf : ScatterDims.WF ⟨2, ![n, C]⟩ ⟨2, ![M, 1]⟩ ⟨2, ![M, C]⟩ [1] [0] [0] 1) :
    ScatterDims ⟨2, ![n, C]⟩ ⟨2, ![M, 1]⟩ ⟨2, ![M, C]⟩ where
  updateWindowDims := [1]
  insertedWindowDims := [0]
  scatterDimsToOperandDims := [0]
  indexVectorDim := 1
  wf := wf

/-- An update of a row scatter lands on the row its start index names. -/
theorem rowsScat_row {n C M : ℕ} (wf : ScatterDims.WF ⟨2, ![n, C]⟩ ⟨2, ![M, 1]⟩ ⟨2, ![M, C]⟩ [1] [0] [0] 1)
    (idx : IVec ⟨2, ![M, 1]⟩ w) (p : Fin M) (k : Fin C) (i : (⟨2, ![n, C]⟩ : Shape).Idx)
    (h : (rowsScat n C M wf).resultIdx? (ix2 p k) idx = some i) : (idx (ix2 p 0)).toInt = ((i 0).val : ℤ) := by
  unfold ScatterDims.resultIdx? at h
  split at h
  · -- The update lands inside the operand: on every axis the landing coordinate is start plus window, and it is
    -- not negative.
    rename_i hh
    have hi := Option.some.inj h
    subst hi
    have h0 := (hh 0).1
    -- Axis 0 is an inserted axis: its window coordinate is 0.
    have hw : (rowsScat n C M wf).window (ix2 p k) 0 = 0 := by
      unfold ScatterDims.window
      rw [dif_neg]
      simp [ScatterDims.sKept, Shape.kept, List.mem_filter]
    -- Axis 0 is the axis the start index names: its start is the index column's entry at row p, read signed.
    have hs : (rowsScat n C M wf).start (ix2 p k) idx 0 = (idx (ix2 p 0)).toInt := by
      unfold ScatterDims.start
      rw [dif_pos (show (0 : Fin 2) ∈ (rowsScat n C M wf).scatterDimsToOperandDims from List.mem_singleton.mpr rfl)]
      have hsi : (rowsScat n C M wf).siIdx (ix2 p k) ⟨List.idxOf (0 : Fin 2) (rowsScat n C M wf).scatterDimsToOperandDims,
          List.idxOf_lt_length_iff.2 (List.mem_singleton.mpr rfl)⟩ = ix2 p 0 := by
        funext b; refine Fin.ext ?_
        match b with
        | ⟨0, _⟩ => rfl
        | ⟨1, _⟩ => rfl
      rw [hsi]
    show (idx (ix2 p 0)).toInt
      = ((((rowsScat n C M wf).start (ix2 p k) idx 0 + (rowsScat n C M wf).window (ix2 p k) 0).toNat : ℕ) : ℤ)
    rw [hw, hs] at h0
    rw [hw, hs]
    omega
  · -- The update is dropped: it lands nowhere.
    cases h

end Cert.Gcn

end
-- ==== Proof.LibRowGather.lean ====
/-
  Rows of a table taken at a column of start indices (jnp's  table[idx]  on a matrix): the result's row p is the
  table's row at  idx[p, 0] , read as a signed integer and clamped into the table; and NumPy's treatment of a
  negative index (add the extent) followed by that clamp does nothing to an index already in range.
-/
import Idealize.ShloMosaic.PureOps
import Idealize.ShloMosaic.Lib.ValueIdx
import Idealize.ShloMosaic.Lib.StableHlo.Predicate

noncomputable section

open Idealize.ShloMosaic Idealize.ShloMosaic.ValueIdx

namespace Cert.RowGather

variable {α : Type}

/-- The dimension numbers of  table[idx]  for a [T, C] table and an [N, 1] column of start indices: axis 0 collapsed
    and indexed, axis 1 an offset axis taken whole. -/
abbrev rowsDims (T C N : ℕ)
    (wf : GatherDims.WF ⟨2, ![T, C]⟩ ⟨2, ![N, 1]⟩ ⟨2, ![N, C]⟩ [1] [0] [] [0] [] 1 ![1, C]) :
    GatherDims ⟨2, ![T, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (p, k): the table at row  idx[p, 0]  (signed, clamped into [0, T − 1]) and column k. -/
theorem gather_rows_apply {T C N w : ℕ} (hT : 0 < T)
    (wf : GatherDims.WF ⟨2, ![T, C]⟩ ⟨2, ![N, 1]⟩ ⟨2, ![N, C]⟩ [1] [0] [] [0] [] 1 ![1, C])
    (x : (⟨2, ![T, C]⟩ : Shape).Idx → α) (idx : IVec ⟨2, ![N, 1]⟩ w) (p : Fin N) (k : Fin C) :
    Host.gather (rowsDims T C N wf) x idx (ix2 p k)
      = x (ix2 ⟨min (idx (ix2 p 0)).toInt.toNat (T - 1), by omega⟩ k) := by
  unfold Host.gather
  congr 1
  funext a
  refine Fin.ext ?_
  match a with
  | ⟨0, _⟩ =>
    show (rowsDims T C N wf).start (ix2 p k) idx 0 + (rowsDims T C N wf).batchCoord (ix2 p k) 0
      + (rowsDims T C N wf).offCoord (ix2 p k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims T C N wf).startIndexMap from List.mem_singleton.mpr rfl)]
    have hsi : (rowsDims T C N wf).siIdx (ix2 p k) ⟨List.idxOf (0 : Fin 2) (rowsDims T C N wf).startIndexMap,
        List.idxOf_lt_length_iff.2 (List.mem_singleton.mpr rfl)⟩ = ix2 p 0 := by
      funext b; refine Fin.ext ?_
      match b with
      | ⟨0, _⟩ => rfl
      | ⟨1, _⟩ => rfl
    rw [hsi]
    rfl
  | ⟨1, _⟩ =>
    have h10 : (1 : Fin 2) ∉ ([0] : List (Fin 2)) := by decide
    show (rowsDims T C N wf).start (ix2 p k) idx 1 + (rowsDims T C N wf).batchCoord (ix2 p k) 1
      + (rowsDims T C N wf).offCoord (ix2 p k) 1 = k.val
    rw [GatherDims.batchCoord_eq_zero _ _ _ List.not_mem_nil]
    unfold GatherDims.start
    rw [dif_neg (show (1 : Fin 2) ∉ (rowsDims T C N wf).startIndexMap from h10)]
    unfold GatherDims.offCoord
    rw [dif_pos (show (1 : Fin 2) ∈ (rowsDims T C N wf).sKept from
      (GatherDims.mem_sKept _ _).mpr ⟨h10, List.not_mem_nil⟩)]
    simp only [Nat.zero_add, Nat.add_zero]
    rfl

/-- A start index already in [0, T): adding the extent when negative and clamping leave its value. -/
theorem wrap_clamp (a n : BitVec 32) (T : ℕ) (ha : a.toNat < T) (hT : T ≤ 2 ^ 31) :
    min (Scalar.select (IntOp.cmpi .slt a 0#32) (IntOp.addi a n) a).toInt.toNat (T - 1) = a.toNat := by
  have ha31 : a.toNat < 2 ^ 31 := by omega
  have h0 : (0#32).toNat < 2 ^ 31 := by decide
  have hc : ¬ IntOp.cmpi .slt a 0#32 = 1 := by
    intro h
    have hlt := (StableHlo.Predicate.slt_iff_toNat ha31 h0).mp h
    simp at hlt
  unfold Scalar.select
  rw [if_neg hc, StableHlo.Predicate.toInt_eq_toNat_of_lt ha31, Int.toNat_natCast]
  omega

end Cert.RowGather

end
-- ==== Proof.LibGcnLayer.lean ====
/-
  One graph-convolution layer spelled the host's way against the same layer with the normalisation moved onto the
  nodes, as whole arrays; and the host's spellings of the dense pieces.

  The host gathers the rows  T s  of a table along the edges, multiplies each by the edge's normalisation
  dinv s * dinv d  (itself gathered from the per-node vector  dinv ), and scatter-adds the products onto the rows  d .
  Moving the factor  dinv s  onto the table before the gather, and the factor  dinv d  out of the sum that lands on
  row  d , gives the same array: the first is associativity of the product, the second needs  dinv d  to be a
  non-negative real number, for then it distributes over the sum whatever the summands are.
-/
import proofs.«405914_j52123723104402_3_alg».proof.Proof.LibGcnScale
import proofs.«405914_j52123723104402_3_alg».proof.Proof.LibGcnDense
import proofs.«405914_j52123723104402_3_alg».proof.Proof.LibRowGather
import proofs.«405914_j52123723104402_3_alg».proof.Proof.LibMlp
import proofs.«405914_j52123723104402_3_alg».proof.Proof.LibColumn
import Idealize.ShloMosaic.PureOps.Ideal
import Idealize.ShloMosaic.PureOps.Ideal.Laws
import Idealize.ShloMosaic.Lib.ValueIdx
import Idealize.ShloMosaic.Lib.Pipeline.Value
import Idealize.ShloMosaic.Lib.StableHlo.Predicate

noncomputable section

open Idealize.ShloMosaic Idealize.ShloMosaic.ValueIdx

namespace Cert.Gcn

open Cert.RowGather (rowsDims)

/-- The three spellings of a rank-2 index at (p, q), of a column's index at (p, 0) and of a rank-1 index at p name
    the same indices. -/
private theorem ij_eq_ix2 {n m : ℕ} (p : Fin n) (q : Fin m) : StableHlo.Predicate.ij p q = ix2 p q := by
  funext b; match b with | ⟨0, _⟩ => rfl | ⟨1, _⟩ => rfl

private theorem ixP_eq_ix2 {n : ℕ} (p : Fin n) : StableHlo.Predicate.ixP p = ix2 p (0 : Fin 1) := by
  funext b; match b with | ⟨0, _⟩ => rfl | ⟨1, _⟩ => rfl

private theorem ofFin_eq_ix1 {n : ℕ} (p : Fin n) : Shape.Idx.ofFin p = ix1 p := by
  funext b; match b with | ⟨0, _⟩ => exact Fin.ext rfl

/-- A vector taken at a column of start indices reads, at p, the vector at the start index of row p, signed and
    clamped into the vector. -/
private theorem take_apply {α : Type} {N n w : ℕ} (g : GatherDims ⟨1, ![N]⟩ ⟨2, ![n, 1]⟩ ⟨1, ![n]⟩)
    (hcoll : g.collapsedSliceDims = [0]) (hob : g.operandBatchingDims = []) (hsim : g.startIndexMap = [0])
    (hivd : g.indexVectorDim = 1) (x : (⟨1, ![N]⟩ : Shape).Idx → α) (idx : IVec ⟨2, ![n, 1]⟩ w) (p : Fin n)
    (hN : 0 < N) :
    Host.gather g x idx (ix1 p) = x (ix1 ⟨min (idx (ix2 p 0)).toInt.toNat (N - 1), by omega⟩) := by
  simpa only [ixP_eq_ix2, ofFin_eq_ix1] using StableHlo.Predicate.gather_take g hcoll hob hsim hivd x idx p hN

/-- THE LAYER. Scatter-adding the gathered rows times the edges' normalisations is scaling the table's rows by  dinv ,
    gathering, scatter-adding, and scaling the result's rows by  dinv . No index has to be in range: a gather clamps
    its start index, and an update that lands outside the operand is dropped on both sides. -/
theorem layer_eq {n C M : ℕ} (hn : 0 < n)
    (wfs : ScatterDims.WF ⟨2, ![n, C]⟩ ⟨2, ![M, 1]⟩ ⟨2, ![M, C]⟩ [1] [0] [0] 1)
    (wfg : GatherDims.WF ⟨2, ![n, C]⟩ ⟨2, ![M, 1]⟩ ⟨2, ![M, C]⟩ [1] [0] [] [0] [] 1 ![1, C])
    (g1 : GatherDims ⟨1, ![n]⟩ ⟨2, ![M, 1]⟩ ⟨1, ![M]⟩) (hcoll : g1.collapsedSliceDims = [0])
    (hob : g1.operandBatchingDims = []) (hsim : g1.startIndexMap = [0]) (hivd : g1.indexVectorDim = 1)
    (hc : (⟨1, ![M]⟩ : Shape).BroadcastsInDim ⟨2, ![M, 1]⟩ ![0])
    (hb2 : (⟨2, ![M, 1]⟩ : Shape).BroadcastsInDim ⟨2, ![M, C]⟩ ![0, 1])
    (hsc : (⟨1, ![n]⟩ : Shape).ShapeCasts ⟨2, ![n, 1]⟩)
    (z : FVec Ideal ⟨2, ![n, C]⟩ .f32) (hz : ∀ i, z i = 0)
    (T : FVec Ideal ⟨2, ![n, C]⟩ .f32) (s d : IVec ⟨1, ![M]⟩ 32)
    (dinv : FVec Ideal ⟨1, ![n]⟩ .f32) (hdinv : ∀ i, NN (dinv i)) :
    Host.scatterAdd (rowsScat n C M wfs) z (broadcastInDim ⟨2, ![M, 1]⟩ ![0] hc d)
        (mulf (Host.gather (rowsDims n C M wfg) T (broadcastInDim ⟨2, ![M, 1]⟩ ![0] hc s))
          (broadcastInDim ⟨2, ![M, C]⟩ ![0, 1] hb2 (broadcastInDim ⟨2, ![M, 1]⟩ ![0] hc
            (mulf (Host.gather g1 dinv (broadcastInDim ⟨2, ![M, 1]⟩ ![0] hc s))
              (Host.gather g1 dinv (broadcastInDim ⟨2, ![M, 1]⟩ ![0] hc d))))))
      = scaleCol (Host.scatterAdd (rowsScat n C M wfs) z (broadcastInDim ⟨2, ![M, 1]⟩ ![0] hc d)
          (Host.gather (rowsDims n C M wfg) (scaleCol T (shapeCast ⟨2, ![n, 1]⟩ dinv hsc))
            (broadcastInDim ⟨2, ![M, 1]⟩ ![0] hc s)))
          (shapeCast ⟨2, ![n, 1]⟩ dinv hsc) := by
  have hn1 : ∀ x : ℕ, min x (n - 1) < n := fun x => by omega
  funext i
  obtain ⟨r, k, rfl⟩ : ∃ (r : Fin n) (k : Fin C), i = ix2 r k := ⟨i 0, i 1, eq_ix2 i⟩
  -- The two update arrays agree once the right one's updates carry the normalisation of the row their start index
  -- names (clamped into the table).
  have hu : mulf (Host.gather (rowsDims n C M wfg) T (broadcastInDim ⟨2, ![M, 1]⟩ ![0] hc s))
        (broadcastInDim ⟨2, ![M, C]⟩ ![0, 1] hb2 (broadcastInDim ⟨2, ![M, 1]⟩ ![0] hc
          (mulf (Host.gather g1 dinv (broadcastInDim ⟨2, ![M, 1]⟩ ![0] hc s))
            (Host.gather g1 dinv (broadcastInDim ⟨2, ![M, 1]⟩ ![0] hc d)))))
      = mulf (Host.gather (rowsDims n C M wfg) (scaleCol T (shapeCast ⟨2, ![n, 1]⟩ dinv hsc))
          (broadcastInDim ⟨2, ![M, 1]⟩ ![0] hc s))
        (fun j => dinv (ix1 ⟨min ((broadcastInDim ⟨2, ![M, 1]⟩ ![0] hc d) (ix2 (j 0) 0)).toInt.toNat (n - 1),
          hn1 _⟩)) := by
    funext j
    obtain ⟨p, q, rfl⟩ : ∃ (p : Fin M) (q : Fin C), j = ix2 p q := ⟨j 0, j 1, eq_ix2 j⟩
    rw [mulf_apply, mulf_apply, Cert.RowGather.gather_rows_apply hn wfg, Cert.RowGather.gather_rows_apply hn wfg]
    -- The edge factor spread over a row is the factor of the edge: the product of the two taken normalisations.
    rw [← ij_eq_ix2 p q, StableHlo.Predicate.bcast_rows hc hb2, ij_eq_ix2, ofFin_eq_ix1, mulf_apply,
      take_apply g1 hcoll hob hsim hivd dinv _ p hn, take_apply g1 hcoll hob hsim hivd dinv _ p hn]
    -- The scaled table's entry is the table's entry times the source's normalisation; the product reassociates.
    show T (ix2 ⟨min ((broadcastInDim ⟨2, ![M, 1]⟩ ![0] hc s) (ix2 p 0)).toInt.toNat (n - 1), hn1 _⟩ q)
        * (dinv (ix1 ⟨min ((broadcastInDim ⟨2, ![M, 1]⟩ ![0] hc s) (ix2 p 0)).toInt.toNat (n - 1), hn1 _⟩)
          * dinv (ix1 ⟨min ((broadcastInDim ⟨2, ![M, 1]⟩ ![0] hc d) (ix2 p 0)).toInt.toNat (n - 1), hn1 _⟩))
      = T (ix2 ⟨min ((broadcastInDim ⟨2, ![M, 1]⟩ ![0] hc s) (ix2 p 0)).toInt.toNat (n - 1), hn1 _⟩ q)
          * shapeCast ⟨2, ![n, 1]⟩ dinv hsc
              (ix2 ⟨min ((broadcastInDim ⟨2, ![M, 1]⟩ ![0] hc s) (ix2 p 0)).toInt.toNat (n - 1), hn1 _⟩ (0 : Fin 1))
          * dinv (ix1 ⟨min ((broadcastInDim ⟨2, ![M, 1]⟩ ![0] hc d) (ix2 p 0)).toInt.toNat (n - 1), hn1 _⟩)
    rw [Cert.Attn.Column.shapeCast_a_a1_apply dinv hsc _ (0 : Fin 1), mul_assoc]
  rw [hu]
  -- On the right the result's row r is scaled by the column's entry (r, 0), the vector's entry r.
  show _ = Host.scatterAdd (rowsScat n C M wfs) z (broadcastInDim ⟨2, ![M, 1]⟩ ![0] hc d)
      (Host.gather (rowsDims n C M wfg) (scaleCol T (shapeCast ⟨2, ![n, 1]⟩ dinv hsc))
        (broadcastInDim ⟨2, ![M, 1]⟩ ![0] hc s)) (ix2 r k)
    * shapeCast ⟨2, ![n, 1]⟩ dinv hsc (ix2 r (0 : Fin 1))
  rw [Cert.Attn.Column.shapeCast_a_a1_apply dinv hsc r (0 : Fin 1)]
  refine Cert.Gcn.scatterAdd_scale (rowsScat n C M wfs) z hz _ _ _ (fun i => dinv (ix1 (i 0))) (fun i => hdinv _)
    (fun j i h => ?_) (ix2 r k)
  -- An update lands on the row its start index names, so the clamped start index is the landing row.
  obtain ⟨p, q, rfl⟩ : ∃ (p : Fin M) (q : Fin C), j = ix2 p q := ⟨j 0, j 1, eq_ix2 j⟩
  have hrow := rowsScat_row wfs _ p q i h
  show dinv (ix1 ⟨min ((broadcastInDim ⟨2, ![M, 1]⟩ ![0] hc d) (ix2 p 0)).toInt.toNat (n - 1), hn1 _⟩)
    = dinv (ix1 (i 0))
  have hlt := idx2_lt0 i
  have hi : (⟨min ((broadcastInDim ⟨2, ![M, 1]⟩ ![0] hc d) (ix2 p 0)).toInt.toNat (n - 1), hn1 _⟩ : Fin n) = i 0 := by
    apply Fin.ext
    show min ((broadcastInDim ⟨2, ![M, 1]⟩ ![0] hc d) (ix2 p 0)).toInt.toNat (n - 1) = (i 0).val
    rw [hrow, Int.toNat_natCast]
    omega
  rw [hi]

/-- The host's matrix product is the sum over the middle coordinate. -/
theorem dot_eq_mm {N K H : ℕ} (d : DotDims ⟨2, ![N, K]⟩ ⟨2, ![K, H]⟩ ⟨2, ![N, H]⟩) (hd : d = DotDims.plain N K H)
    (a : FVec Ideal ⟨2, ![N, K]⟩ .f32) (W : FVec Ideal ⟨2, ![K, H]⟩ .f32) :
    Host.dotGeneral d none a W = mm a W := by
  subst hd
  funext i
  -- The host's product at an entry is the sum over the contraction index; for a plain product that index is the
  -- middle coordinate.
  rw [show Host.dotGeneral (DotDims.plain N K H) none a W i = _ from
    Ideal.dotGeneral_apply (DotDims.plain N K H) none .single a W i]
  exact Cert.Mlp.plain_sum a W i

/-- The host's bias, a vector broadcast to a row and down the rows, is the vector kept as a row and added to every row. -/
theorem host_bias_eq {N H : ℕ} (h1 : (⟨1, ![H]⟩ : Shape).BroadcastsInDim ⟨2, ![1, H]⟩ ![1])
    (h2 : (⟨2, ![1, H]⟩ : Shape).BroadcastsInDim ⟨2, ![N, H]⟩ ![0, 1]) (hsc : (⟨1, ![H]⟩ : Shape).ShapeCasts ⟨2, ![1, H]⟩)
    (a : FVec Ideal ⟨2, ![N, H]⟩ .f32) (b : FVec Ideal ⟨1, ![H]⟩ .f32) :
    addf a (broadcastInDim (⟨2, ![N, H]⟩ : Shape) ![0, 1] h2 (broadcastInDim (⟨2, ![1, H]⟩ : Shape) ![1] h1 b))
      = addRow a (shapeCast ⟨2, ![1, H]⟩ b hsc) := by
  funext i
  obtain ⟨p, q, rfl⟩ : ∃ (p : Fin N) (q : Fin H), i = ix2 p q := ⟨i 0, i 1, eq_ix2 i⟩
  -- Both read the vector's entry q: the broadcast at (p, q), the cast row at (0, q).
  rw [addf_apply, Cert.Mlp.bcast_two h1 h2 b p q]
  show a (ix2 p q) + b (ix1 q) = a (ix2 p q) + shapeCast ⟨2, ![1, H]⟩ b hsc (ix2 0 q)
  rw [show shapeCast (⟨2, ![1, H]⟩ : Shape) b hsc (ix2 0 q) = b (ix1 q) from congrFun (Cert.Mlp.row_shapeCast b hsc) q]

/-- The host's rectifier. -/
theorem host_relu_eq {S : Shape} (h0 : (⟨0, ![]⟩ : Shape).BroadcastsInDim S ![]) (a : FVec Ideal S .f32) :
    maximumf a (broadcastInDim S ![] h0 (constant (⟨0, ![]⟩ : Shape) .f32 0x00000000#32)) = relu a := by
  funext i
  -- The broadcast scalar reads the zero word's value at every index, and that value is 0.
  show max (a i) (Ideal.ofBits .f32 0x00000000#32) = max (a i) 0
  rw [Ideal.ofBits_zero_f32]

end Cert.Gcn

end
-- ==== Proof.LibGcnSides.lean ====
/-
  The two-layer graph convolution as the host spells it and as the blocked kernels compute it, over arbitrary sizes:
  n nodes, M edges (self loops included), K input features, C1 hidden and C2 output features.

  Host side: h = x W1; every edge's message is  h[s] * (dinv[s] * dinv[d]) , scatter-added onto d; bias, rectifier;
  the same again with W2, no rectifier. Kernel side: the table is scaled by dinv before the gather and the aggregate
  after the scatter, with the first layer's closing scale, bias and rectifier fused into the second product. Layer by
  layer the two agree by the layer identity; between the layers they are the same dense maps.
-/
import proofs.«405914_j52123723104402_3_alg».proof.Proof.LibGcnLayer

noncomputable section

open Idealize.ShloMosaic Idealize.ShloMosaic.ValueIdx

namespace Cert.Gcn

open Cert.RowGather (rowsDims)

section Sides

variable {n M K C1 C2 : ℕ}
  (wfs1 : ScatterDims.WF ⟨2, ![n, C1]⟩ ⟨2, ![M, 1]⟩ ⟨2, ![M, C1]⟩ [1] [0] [0] 1)
  (wfg1 : GatherDims.WF ⟨2, ![n, C1]⟩ ⟨2, ![M, 1]⟩ ⟨2, ![M, C1]⟩ [1] [0] [] [0] [] 1 ![1, C1])
  (wfs2 : ScatterDims.WF ⟨2, ![n, C2]⟩ ⟨2, ![M, 1]⟩ ⟨2, ![M, C2]⟩ [1] [0] [0] 1)
  (wfg2 : GatherDims.WF ⟨2, ![n, C2]⟩ ⟨2, ![M, 1]⟩ ⟨2, ![M, C2]⟩ [1] [0] [] [0] [] 1 ![1, C2])
  (g1 : GatherDims ⟨1, ![n]⟩ ⟨2, ![M, 1]⟩ ⟨1, ![M]⟩)
  (dot1 : DotDims ⟨2, ![n, K]⟩ ⟨2, ![K, C1]⟩ ⟨2, ![n, C1]⟩)
  (dot2 : DotDims ⟨2, ![n, C1]⟩ ⟨2, ![C1, C2]⟩ ⟨2, ![n, C2]⟩)
  (hc : (⟨1, ![M]⟩ : Shape).BroadcastsInDim ⟨2, ![M, 1]⟩ ![0])
  (hb1 : (⟨2, ![M, 1]⟩ : Shape).BroadcastsInDim ⟨2, ![M, C1]⟩ ![0, 1])
  (hb2 : (⟨2, ![M, 1]⟩ : Shape).BroadcastsInDim ⟨2, ![M, C2]⟩ ![0, 1])
  (hr1 : (⟨1, ![C1]⟩ : Shape).BroadcastsInDim ⟨2, ![1, C1]⟩ ![1])
  (hr1' : (⟨2, ![1, C1]⟩ : Shape).BroadcastsInDim ⟨2, ![n, C1]⟩ ![0, 1])
  (hr2 : (⟨1, ![C2]⟩ : Shape).BroadcastsInDim ⟨2, ![1, C2]⟩ ![1])
  (hr2' : (⟨2, ![1, C2]⟩ : Shape).BroadcastsInDim ⟨2, ![n, C2]⟩ ![0, 1])
  (h01 : (⟨0, ![]⟩ : Shape).BroadcastsInDim ⟨2, ![n, C1]⟩ ![])
  (h02 : (⟨0, ![]⟩ : Shape).BroadcastsInDim ⟨2, ![n, C2]⟩ ![])

/-- The edges' normalisations  dinv[s] * dinv[d] . -/
def edgeNorm {F : FTy → Type} [FloatOps F] (s d : IVec ⟨1, ![M]⟩ 32) (dinv : FVec F ⟨1, ![n]⟩ .f32) : FVec F ⟨1, ![M]⟩ .f32 :=
  mulf (Host.gather g1 dinv (broadcastInDim ⟨2, ![M, 1]⟩ ![0] hc s)) (Host.gather g1 dinv (broadcastInDim ⟨2, ![M, 1]⟩ ![0] hc d))

/-- The first layer's aggregate, the host's way. -/
def hostAgg1 {F : FTy → Type} [FloatOps F] (x : FVec F ⟨2, ![n, K]⟩ .f32) (W1 : FVec F ⟨2, ![K, C1]⟩ .f32)
    (s d : IVec ⟨1, ![M]⟩ 32) (dinv : FVec F ⟨1, ![n]⟩ .f32) : FVec F ⟨2, ![n, C1]⟩ .f32 :=
  Host.scatterAdd (rowsScat n C1 M wfs1) (broadcastInDim ⟨2, ![n, C1]⟩ ![] h01 (constant ⟨0, ![]⟩ .f32 0x00000000#32))
    (broadcastInDim ⟨2, ![M, 1]⟩ ![0] hc d)
    (mulf (Host.gather (rowsDims n C1 M wfg1) (Host.dotGeneral dot1 none x W1) (broadcastInDim ⟨2, ![M, 1]⟩ ![0] hc s))
      (broadcastInDim ⟨2, ![M, C1]⟩ ![0, 1] hb1 (broadcastInDim ⟨2, ![M, 1]⟩ ![0] hc (edgeNorm g1 hc s d dinv))))

/-- The hidden features: bias and rectifier on the first aggregate. -/
def hostHidden {F : FTy → Type} [FloatOps F] (x : FVec F ⟨2, ![n, K]⟩ .f32) (W1 : FVec F ⟨2, ![K, C1]⟩ .f32)
    (b1 : FVec F ⟨1, ![C1]⟩ .f32) (s d : IVec ⟨1, ![M]⟩ 32) (dinv : FVec F ⟨1, ![n]⟩ .f32) : FVec F ⟨2, ![n, C1]⟩ .f32 :=
  maximumf (addf (hostAgg1 wfs1 wfg1 g1 dot1 hc hb1 h01 x W1 s d dinv)
      (broadcastInDim (⟨2, ![n, C1]⟩ : Shape) ![0, 1] hr1' (broadcastInDim (⟨2, ![1, C1]⟩ : Shape) ![1] hr1 b1)))
    (broadcastInDim ⟨2, ![n, C1]⟩ ![] h01 (constant ⟨0, ![]⟩ .f32 0x00000000#32))

/-- The whole network, the host's way. -/
def hostSide {F : FTy → Type} [FloatOps F] (x : FVec F ⟨2, ![n, K]⟩ .f32) (W1 : FVec F ⟨2, ![K, C1]⟩ .f32)
    (b1 : FVec F ⟨1, ![C1]⟩ .f32) (W2 : FVec F ⟨2, ![C1, C2]⟩ .f32) (b2 : FVec F ⟨1, ![C2]⟩ .f32)
    (s d : IVec ⟨1, ![M]⟩ 32) (dinv : FVec F ⟨1, ![n]⟩ .f32) : FVec F ⟨2, ![n, C2]⟩ .f32 :=
  addf (Host.scatterAdd (rowsScat n C2 M wfs2) (broadcastInDim ⟨2, ![n, C2]⟩ ![] h02 (constant ⟨0, ![]⟩ .f32 0x00000000#32))
      (broadcastInDim ⟨2, ![M, 1]⟩ ![0] hc d)
      (mulf (Host.gather (rowsDims n C2 M wfg2)
            (Host.dotGeneral dot2 none (hostHidden wfs1 wfg1 g1 dot1 hc hb1 hr1 hr1' h01 x W1 b1 s d dinv) W2)
            (broadcastInDim ⟨2, ![M, 1]⟩ ![0] hc s))
        (broadcastInDim ⟨2, ![M, C2]⟩ ![0, 1] hb2 (broadcastInDim ⟨2, ![M, 1]⟩ ![0] hc (edgeNorm g1 hc s d dinv)))))
    (broadcastInDim (⟨2, ![n, C2]⟩ : Shape) ![0, 1] hr2' (broadcastInDim (⟨2, ![1, C2]⟩ : Shape) ![1] hr2 b2))

variable (hscn : (⟨1, ![n]⟩ : Shape).ShapeCasts ⟨2, ![n, 1]⟩)
  (hsc1 : (⟨1, ![C1]⟩ : Shape).ShapeCasts ⟨2, ![1, C1]⟩) (hsc2 : (⟨1, ![C2]⟩ : Shape).ShapeCasts ⟨2, ![1, C2]⟩)

/-- The whole network, the kernels' way: scale, gather, scatter-add, fused dense maps. -/
def kernelSide (x : FVec Ideal ⟨2, ![n, K]⟩ .f32) (W1 : FVec Ideal ⟨2, ![K, C1]⟩ .f32)
    (b1 : FVec Ideal ⟨1, ![C1]⟩ .f32) (W2 : FVec Ideal ⟨2, ![C1, C2]⟩ .f32) (b2 : FVec Ideal ⟨1, ![C2]⟩ .f32)
    (s d : IVec ⟨1, ![M]⟩ 32) (dinv : FVec Ideal ⟨1, ![n]⟩ .f32) : FVec Ideal ⟨2, ![n, C2]⟩ .f32 :=
  G2 (Host.scatterAdd (F := Ideal) (rowsScat n C2 M wfs2) (broadcastInDim ⟨2, ![n, C2]⟩ ![] h02 (constant (F := Ideal) ⟨0, ![]⟩ .f32 0x00000000#32))
        (broadcastInDim ⟨2, ![M, 1]⟩ ![0] hc d)
        (Host.gather (rowsDims n C2 M wfg2)
          (G1 (Host.scatterAdd (F := Ideal) (rowsScat n C1 M wfs1) (broadcastInDim ⟨2, ![n, C1]⟩ ![] h01 (constant (F := Ideal) ⟨0, ![]⟩ .f32 0x00000000#32))
                (broadcastInDim ⟨2, ![M, 1]⟩ ![0] hc d)
                (Host.gather (rowsDims n C1 M wfg1) (G0 x W1 (shapeCast ⟨2, ![n, 1]⟩ dinv hscn)) (broadcastInDim ⟨2, ![M, 1]⟩ ![0] hc s)))
              (shapeCast ⟨2, ![n, 1]⟩ dinv hscn) (shapeCast ⟨2, ![1, C1]⟩ b1 hsc1) W2)
          (broadcastInDim ⟨2, ![M, 1]⟩ ![0] hc s)))
      (shapeCast ⟨2, ![n, 1]⟩ dinv hscn) (shapeCast ⟨2, ![1, C2]⟩ b2 hsc2)

/-- The zero word broadcast is zero everywhere. -/
theorem zeros_apply {S : Shape} (h0 : (⟨0, ![]⟩ : Shape).BroadcastsInDim S ![]) (i : S.Idx) :
    broadcastInDim S ![] h0 (constant (F := Ideal) ⟨0, ![]⟩ .f32 0x00000000#32) i = 0 :=
  (StableHlo.Predicate.bcast_scalar h0 (by decide) _ i).trans Ideal.ofBits_zero_f32

/-- THE TWO SIDES AGREE, for any edge lists, when the per-node factors are non-negative reals. -/
theorem sides_eq (hn : 0 < n) (hcoll : g1.collapsedSliceDims = [0]) (hob : g1.operandBatchingDims = [])
    (hsim : g1.startIndexMap = [0]) (hivd : g1.indexVectorDim = 1)
    (hdot1 : dot1 = DotDims.plain n K C1) (hdot2 : dot2 = DotDims.plain n C1 C2)
    (x : FVec Ideal ⟨2, ![n, K]⟩ .f32) (W1 : FVec Ideal ⟨2, ![K, C1]⟩ .f32)
    (b1 : FVec Ideal ⟨1, ![C1]⟩ .f32) (W2 : FVec Ideal ⟨2, ![C1, C2]⟩ .f32) (b2 : FVec Ideal ⟨1, ![C2]⟩ .f32)
    (s d : IVec ⟨1, ![M]⟩ 32) (dinv : FVec Ideal ⟨1, ![n]⟩ .f32) (hdinv : ∀ i, NN (dinv i)) :
    hostSide (F := Ideal) wfs1 wfg1 wfs2 wfg2 g1 dot1 dot2 hc hb1 hb2 hr1 hr1' hr2 hr2' h01 h02 x W1 b1 W2 b2 s d dinv
      = kernelSide wfs1 wfg1 wfs2 wfg2 hc h01 h02 hscn hsc1 hsc2 x W1 b1 W2 b2 s d dinv := by
  have e1 : hostAgg1 (F := Ideal) wfs1 wfg1 g1 dot1 hc hb1 h01 x W1 s d dinv
      = scaleCol (Host.scatterAdd (F := Ideal) (rowsScat n C1 M wfs1) (broadcastInDim ⟨2, ![n, C1]⟩ ![] h01 (constant (F := Ideal) ⟨0, ![]⟩ .f32 0x00000000#32))
          (broadcastInDim ⟨2, ![M, 1]⟩ ![0] hc d)
          (Host.gather (rowsDims n C1 M wfg1) (G0 x W1 (shapeCast ⟨2, ![n, 1]⟩ dinv hscn)) (broadcastInDim ⟨2, ![M, 1]⟩ ![0] hc s)))
          (shapeCast ⟨2, ![n, 1]⟩ dinv hscn) := by
    unfold hostAgg1 edgeNorm
    rw [dot_eq_mm dot1 hdot1]
    exact layer_eq hn wfs1 wfg1 g1 hcoll hob hsim hivd hc hb1 hscn _ (zeros_apply h01) (mm x W1) s d dinv hdinv
  have e2 : hostHidden (F := Ideal) wfs1 wfg1 g1 dot1 hc hb1 hr1 hr1' h01 x W1 b1 s d dinv
      = relu (addRow (scaleCol (Host.scatterAdd (F := Ideal) (rowsScat n C1 M wfs1) (broadcastInDim ⟨2, ![n, C1]⟩ ![] h01 (constant (F := Ideal) ⟨0, ![]⟩ .f32 0x00000000#32))
          (broadcastInDim ⟨2, ![M, 1]⟩ ![0] hc d)
          (Host.gather (rowsDims n C1 M wfg1) (G0 x W1 (shapeCast ⟨2, ![n, 1]⟩ dinv hscn)) (broadcastInDim ⟨2, ![M, 1]⟩ ![0] hc s)))
          (shapeCast ⟨2, ![n, 1]⟩ dinv hscn)) (shapeCast ⟨2, ![1, C1]⟩ b1 hsc1)) := by
    unfold hostHidden
    rw [e1, host_bias_eq hr1 hr1' hsc1, host_relu_eq h01]
  unfold hostSide kernelSide
  rw [e2, dot_eq_mm dot2 hdot2]
  unfold edgeNorm
  rw [layer_eq hn wfs2 wfg2 g1 hcoll hob hsim hivd hc hb2 hscn _ (zeros_apply h02) _ s d dinv hdinv, host_bias_eq hr2 hr2' hsc2]
  rfl

end Sides

end Cert.Gcn

end
-- ==== Proof.Bridge.lean ====
/-
  The kernel's result and the reference's result are one function of the arguments when every edge index is a node
  index: the kernel's clip and its take-with-fill then do nothing, the reference's wrap of negative indices does nothing,
  both programs count the same degrees, and what is left is the two spellings of the two-layer graph convolution, which
  agree because the inverse-square-root degrees are non-negative real numbers.
-/
import proofs.«405914_j52123723104402_3_alg».proof.Proof.LibGcnSides
import proofs.«405914_j52123723104402_3_alg».proof.Proof.KValue
import proofs.«405914_j52123723104402_3_alg».proof.Proof.Range
import proofs.«405914_j52123723104402_3_alg».proof.Proof.RefRead

set_option maxRecDepth 16384

noncomputable section

namespace Cert.Bridge

open Idealize.ShloMosaic Idealize.ShloMosaic.ValueIdx
open Cert.KernelIdeal.Hand
open Cert.Gcn (NN)

namespace R
export Cert.ReferenceIdeal.Gen (scatter_S100000x128_S1700000x1_S1700000x128_1_0_0_1_wf gather_S100000x128_S1700000x1_S1700000x128_1_0_n_n_0_1_1128_wf
  scatter_S100000x64_S1700000x1_S1700000x64_1_0_0_1_wf gather_S100000x64_S1700000x1_S1700000x64_1_0_n_n_0_1_164_wf
  bcast_S1700000_S1700000x1_0 bcast_S1700000x1_S1700000x128_0_1 bcast_S1700000x1_S1700000x64_0_1 bcast_S128_S1x128_1 bcast_S1x128_S100000x128_0_1
  bcast_S64_S1x64_1 bcast_S1x64_S100000x64_0_1 bcast_S_S100000x128 bcast_S_S100000x64)
export Cert.ReferenceIdeal (gather_S100000_S1700000x1_S1700000_n_0_n_n_0_1_1 dot_S100000x128_S128x128_S100000x128_1_0_0_1_n_n dot_S100000x128_S128x64_S100000x64_1_0_0_1_n_n)
end R

/-- The host's inverse square root, entry by entry. -/
private theorem rsqrt_at {S : Shape} (x : FVec Ideal S .f32) (i : S.Idx) : Host.rsqrt (F := Ideal) x i = Ideal.rsqrt (x i) := rfl

/-- The comparison of two extended reals. -/
private theorem cmpf_at (p : CmpFPredicate) (a b : EReal) : FloatOps.cmpf (F := Ideal) (φ := .f32) p a b = Ideal.cmp p a b := rfl

/-- The in-degree column's entries are non-negative reals: each degree is a count. -/
theorem dinv_nn (d : IVec Cert.KernelIdeal.S1700000 32) (i : Cert.KernelIdeal.S100000.Idx) : NN (dinvOf (F := Ideal) d i) := by
  obtain ⟨k, hk⟩ := Cert.Gcn.scatterAdd_ones Cert.KernelIdeal.scatter_S100000_S1700000x1_S1700000_n_0_0_1
    (broadcastInDim Cert.KernelIdeal.S100000 ![] Cert.KernelIdeal.Gen.bcast_S_S100000 (constant (F := Ideal) Cert.KernelIdeal.S_ .f32 0x00000000#32))
    (fun j => Cert.Gcn.zeros_apply Cert.KernelIdeal.Gen.bcast_S_S100000 j) (colW d)
    (broadcastInDim Cert.KernelIdeal.S1700000 ![] Cert.KernelIdeal.Gen.bcast_S_S1700000 (constant (F := Ideal) Cert.KernelIdeal.S_ .f32 0x3F800000#32))
    (fun j => (StableHlo.Predicate.bcast_scalar Cert.KernelIdeal.Gen.bcast_S_S1700000 (by decide) _ j).trans Ideal.ofBits_one_f32) i
  have hk' : degOf (F := Ideal) d i = ((k : ℝ) : EReal) := hk
  have h0 : broadcastInDim Cert.KernelIdeal.S100000 ![] Cert.KernelIdeal.Gen.bcast_S_S100000 (constant (F := Ideal) Cert.KernelIdeal.S_ .f32 0x00000000#32) i = 0 :=
    Cert.Gcn.zeros_apply Cert.KernelIdeal.Gen.bcast_S_S100000 i
  have h0' : broadcastInDim Cert.KernelIdeal.S100000 ![] Cert.KernelIdeal.Gen.bcast_S_S100000 (id (constant (F := Ideal) Cert.KernelIdeal.S_ .f32 0x00000000#32)) i = 0 :=
    Cert.Gcn.zeros_apply Cert.KernelIdeal.Gen.bcast_S_S100000 i
  unfold dinvOf
  rw [select_apply, cmpf_apply, h0, h0']
  rw [rsqrt_at, cmpf_at, hk']
  exact Cert.Gcn.dinv_nn k

section
variable (x : Cert.KernelIdeal.S100000x128.Idx → EReal) (W1 : Cert.KernelIdeal.S128x128.Idx → EReal) (b1 : Cert.KernelIdeal.S128.Idx → EReal)
  (W2 : Cert.KernelIdeal.S128x64.Idx → EReal) (b2 : Cert.KernelIdeal.S64.Idx → EReal) (E : IVec Cert.KernelIdeal.S2x1600000 32)

/-- The kernel's side in the common form. -/
theorem kout_eq (hE : EdgesInRange E) :
    Kout x W1 b1 W2 b2 E
      = Cert.Gcn.kernelSide (n := 100000) (M := 1700000) (K := 128) (C1 := 128) (C2 := 64)
          R.scatter_S100000x128_S1700000x1_S1700000x128_1_0_0_1_wf R.gather_S100000x128_S1700000x1_S1700000x128_1_0_n_n_0_1_1128_wf
          R.scatter_S100000x64_S1700000x1_S1700000x64_1_0_0_1_wf R.gather_S100000x64_S1700000x1_S1700000x64_1_0_n_n_0_1_164_wf
          R.bcast_S1700000_S1700000x1_0 R.bcast_S_S100000x128 R.bcast_S_S100000x64
          Cert.KernelIdeal.Gen.shapeCasts_S100000_S100000x1 Cert.KernelIdeal.Gen.shapeCasts_S128_S1x128 Cert.KernelIdeal.Gen.shapeCasts_S64_S1x64
          x W1 b1 W2 b2 (catRow0 E) (catRow1 E) (dinvOf (F := Ideal) (catRow1 E)) := by
  have hs := catRow0_lt E hE
  have hd := catRow1_lt E hE
  unfold Kout
  rw [clipW_id _ hs, clipW_id _ hd, take128_eq _ _ hs, take64_eq _ _ hs]
  rfl

/-- The reference's side in the common form. -/
theorem rout_eq (hE : EdgesInRange E) :
    Cert.ReferenceIdeal.Read.val_main_v64 (F := Ideal) x W1 b1 W2 b2 E
      = Cert.Gcn.hostSide (F := Ideal) (n := 100000) (M := 1700000) (K := 128) (C1 := 128) (C2 := 64)
          R.scatter_S100000x128_S1700000x1_S1700000x128_1_0_0_1_wf R.gather_S100000x128_S1700000x1_S1700000x128_1_0_n_n_0_1_1128_wf
          R.scatter_S100000x64_S1700000x1_S1700000x64_1_0_0_1_wf R.gather_S100000x64_S1700000x1_S1700000x64_1_0_n_n_0_1_164_wf
          R.gather_S100000_S1700000x1_S1700000_n_0_n_n_0_1_1 R.dot_S100000x128_S128x128_S100000x128_1_0_0_1_n_n R.dot_S100000x128_S128x64_S100000x64_1_0_0_1_n_n
          R.bcast_S1700000_S1700000x1_0 R.bcast_S1700000x1_S1700000x128_0_1 R.bcast_S1700000x1_S1700000x64_0_1
          R.bcast_S128_S1x128_1 R.bcast_S1x128_S100000x128_0_1 R.bcast_S64_S1x64_1 R.bcast_S1x64_S100000x64_0_1
          R.bcast_S_S100000x128 R.bcast_S_S100000x64
          x W1 b1 W2 b2 (catRow0 E) (catRow1 E) (dinvOf (F := Ideal) (catRow1 E)) := by
  have hs := catRow0_lt E hE
  have hd := catRow1_lt E hE
  have h19 : Cert.ReferenceIdeal.Read.val_main_v19 (F := Ideal) E = catRow0 E :=
    (show Cert.ReferenceIdeal.Read.val_main_v19 (F := Ideal) E = wrapW (catRow0 E) from rfl).trans (wrapW_id _ hs)
  have h35 : Cert.ReferenceIdeal.Read.val_main_v35 (F := Ideal) E = catRow0 E :=
    (show Cert.ReferenceIdeal.Read.val_main_v35 (F := Ideal) E = wrapW (catRow0 E) from rfl).trans (wrapW_id _ hs)
  have h53 : Cert.ReferenceIdeal.Read.val_main_v53 (F := Ideal) E = catRow0 E :=
    (show Cert.ReferenceIdeal.Read.val_main_v53 (F := Ideal) E = wrapW (catRow0 E) from rfl).trans (wrapW_id _ hs)
  have h26 : Cert.ReferenceIdeal.Read.val_main_v26 (F := Ideal) E = catRow1 E :=
    (show Cert.ReferenceIdeal.Read.val_main_v26 (F := Ideal) E = wrapW (catRow1 E) from rfl).trans (wrapW_id _ hd)
  have h6 : Cert.ReferenceIdeal.Read.val_main_v6 (F := Ideal) E = catRow1 E := rfl
  have h14 : Cert.ReferenceIdeal.Read.val_main_v14 (F := Ideal) E = dinvOf (F := Ideal) (catRow1 E) := rfl
  simp only [Cert.ReferenceIdeal.Read.val_main_v64, Cert.ReferenceIdeal.Read.val_main_v61, Cert.ReferenceIdeal.Read.val_main_v63,
    Cert.ReferenceIdeal.Read.val_main_v62, Cert.ReferenceIdeal.Read.val_main_v59, Cert.ReferenceIdeal.Read.val_main_cst_11,
    Cert.ReferenceIdeal.Read.val_main_v60, Cert.ReferenceIdeal.Read.val_main_v58, Cert.ReferenceIdeal.Read.val_main_v55,
    Cert.ReferenceIdeal.Read.val_main_v57, Cert.ReferenceIdeal.Read.val_main_v56, Cert.ReferenceIdeal.Read.val_main_v54,
    Cert.ReferenceIdeal.Read.val_main_v48, Cert.ReferenceIdeal.Read.val_main_v47, Cert.ReferenceIdeal.Read.val_main_call1_v0,
    Cert.ReferenceIdeal.Read.val_main_call1_cst, Cert.ReferenceIdeal.Read.val_main_v46, Cert.ReferenceIdeal.Read.val_main_v45,
    Cert.ReferenceIdeal.Read.val_main_v44, Cert.ReferenceIdeal.Read.val_main_v43, Cert.ReferenceIdeal.Read.val_main_v42,
    Cert.ReferenceIdeal.Read.val_main_v41, Cert.ReferenceIdeal.Read.val_main_cst_8, Cert.ReferenceIdeal.Read.val_main_v40,
    Cert.ReferenceIdeal.Read.val_main_v39, Cert.ReferenceIdeal.Read.val_main_v38, Cert.ReferenceIdeal.Read.val_main_v37,
    Cert.ReferenceIdeal.Read.val_main_v36, Cert.ReferenceIdeal.Read.val_main_v30, Cert.ReferenceIdeal.Read.val_main_v29,
    Cert.ReferenceIdeal.Read.val_main_v28, Cert.ReferenceIdeal.Read.val_main_v27, Cert.ReferenceIdeal.Read.val_main_v21,
    Cert.ReferenceIdeal.Read.val_main_v20]
  rw [h19, h35, h53, h26, h6, h14]
  rfl

/-- THE BRIDGE: with every edge index a node index, the kernel's function of the arguments is the reference's. -/
theorem out_eq (hE : EdgesInRange E) :
    Kout x W1 b1 W2 b2 E = Cert.ReferenceIdeal.Read.val_main_v64 (F := Ideal) x W1 b1 W2 b2 E := by
  rw [kout_eq x W1 b1 W2 b2 E hE, rout_eq x W1 b1 W2 b2 E hE]
  exact (Cert.Gcn.sides_eq _ _ _ _ _ _ _ _ _ _ _ _ _ _ _ _ _ _ _ (by decide) rfl rfl rfl rfl rfl rfl x W1 b1 W2 b2 _ _ _
    (fun i => dinv_nn (catRow1 E) i)).symm

end

end Cert.Bridge

end
-- ==== Proof.lean ====
/- The proof of `Cert.Claim`: the three programs run and leave their arguments as launched, the idealized kernel is
   the kernel's own text read at the extended reals (no rewrite was applied), and the idealized kernel and the
   idealized reference end with equal results.

   The kernel is a two-layer graph convolution with the symmetric degree normalisation  dinv[s] * dinv[d]  moved from
   the edges onto the nodes: each layer's table is scaled by  dinv  before the row gather and the scatter-added
   aggregate is scaled by  dinv  again afterwards, inside three blocked dense kernels; the reference multiplies every
   gathered row by the edge's normalisation. The two agree because  dinv d  is the same for all edges into node  d  and
   is a non-negative real number (the inverse square root of a count, or zero), so it distributes over the sum of the
   messages whatever their values: no input has to be finite for that. What the statement does need is that every
   edge index names a node: the kernel clips its indices into the node range and the reference drops out-of-range
   destinations, so the precondition says  0 ≤ edge_index < 100000 ; under it the clip, the wrap of negative indices
   and the fill of out-of-range rows all do nothing. -/
import proofs.«405914_j52123723104402_3_alg».proof.Defs
import proofs.«405914_j52123723104402_3_alg».proof.Proof.Gen.Kernel
import proofs.«405914_j52123723104402_3_alg».proof.Proof.Gen.Kernel.Skeleton
import proofs.«405914_j52123723104402_3_alg».proof.Proof.Gen.Kernel.Launch
import proofs.«405914_j52123723104402_3_alg».proof.Proof.Gen.Kernel.Points
import proofs.«405914_j52123723104402_3_alg».proof.Proof.Gen.Kernel.Frame
import proofs.«405914_j52123723104402_3_alg».proof.Proof.Gen.KernelIdeal
import proofs.«405914_j52123723104402_3_alg».proof.Proof.Gen.KernelIdeal.Skeleton
import proofs.«405914_j52123723104402_3_alg».proof.Proof.Gen.KernelIdeal.Launch
import proofs.«405914_j52123723104402_3_alg».proof.Proof.Gen.KernelIdeal.Points
import proofs.«405914_j52123723104402_3_alg».proof.Proof.Gen.KernelIdeal.Frame
import proofs.«405914_j52123723104402_3_alg».proof.Proof.Gen.ReferenceIdeal
import proofs.«405914_j52123723104402_3_alg».proof.Proof.Gen.Pre_finite_inputs
import proofs.«405914_j52123723104402_3_alg».proof.Proof.RefRun
import proofs.«405914_j52123723104402_3_alg».proof.Proof.RefRead
import proofs.«405914_j52123723104402_3_alg».proof.Proof.KValue
import proofs.«405914_j52123723104402_3_alg».proof.Proof.Range
import proofs.«405914_j52123723104402_3_alg».proof.Proof.Bridge
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  fun m ρ m' ρ' hpre hagree =>
    ⟨fun c => Cert.KernelIdeal.Hand.Kout (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5)),
      Cert.KernelIdeal.Hand.run m ρ,
      (θ_run Cert.ReferenceIdeal.defs _ _).mono (fun _ h c => ⟨by
          rw [(h c).1, Cert.ReferenceIdeal.Read.val_main_v64_eq, (hagree c).1, (hagree c).2.1, (hagree c).2.2.1, (hagree c).2.2.2.1,
            (hagree c).2.2.2.2.1, (hagree c).2.2.2.2.2]
          exact (Cert.Bridge.out_eq _ _ _ _ _ _ (Cert.KernelIdeal.Hand.edgesInRange_of_pre _ _ _ _ _ _ (hpre c))).symm,
        (h c).2⟩) (Cert.ReferenceIdeal.Value.run (F := Ideal) m' ρ')⟩⟩

end Cert.Proof

end
